-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S40000x1 : Shape := ⟨2, ![40000, 1]⟩
abbrev S128x128 : Shape := ⟨2, ![128, 128]⟩
abbrev S128 : Shape := ⟨1, ![128]⟩
abbrev S640000 : Shape := ⟨1, ![640000]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S40000x1 : S_.BroadcastsInDim S40000x1 (![] : Fin 0 → Fin S40000x1.rank)
  reducesTo_S40000x1_S_d0_1 : S40000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128 .f32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S40000x128 .f32) (main_arg1 : FVec F S40000x1 .f32) (main_arg2 : FVec F S128x128 .f32) (main_arg3 : FVec F S128x128 .f32) (main_arg4 : FVec F S128 .f32) (main_arg5 : FVec F S128 .f32) (main_arg6 : FVec F S128 .f32) (main_arg7 : IVec S640000 32) (main_arg8 : IVec S640000 32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S40000x1 .f32 := Host.absf main_arg1
  let main_cst_0 : FVec F S_ .f32 := constant S_ .f32 0x7F800000#32
  let main_v5 : FVec F S40000x1 .f32 := broadcastInDim S40000x1 ![] bcast_S_S40000x1 main_cst_0
  let main_v6 : IVec S40000x1 1 := cmpf .olt main_v4 main_v5
  let main_c_1 : IVec S_ 1 := constantI S_ 1 1#1
  let main_v7 : IVec S_ 1 := (fun x v => Host.reduce IntOp.andi x v reducesTo_S40000x1_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S40000x128 : Shape := ⟨2, ![40000, 128]⟩
abbrev S40000x1 : Shape := ⟨2, ![40000, 1]⟩
abbrev S128x128 : Shape := ⟨2, ![128, 128]⟩
abbrev S128 : Shape := ⟨1, ![128]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S40000 : Shape := ⟨1, ![40000]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 58
  | .vmem => 21
  | .smem => 0
  | _ => 0

abbrev bufTy : (tb : Table) → Fin (tcTables nBuf tb) → BufTy
  | .hbm, ⟨0, _⟩ => ⟨S40000x128, .f32⟩
  | .hbm, ⟨1, _⟩ => ⟨S40000x1, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S640000, .i32⟩
  | .hbm, ⟨8, _⟩ => ⟨S640000, .i32⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S640000x128, .f32⟩
  | .hbm, ⟨18, _⟩ => ⟨S_, .f32⟩
  | .hbm, ⟨19, _⟩ => ⟨S40000x128, .f32⟩
  | .hbm, ⟨20, _⟩ => ⟨S640000x1, .i32⟩
  | .hbm, ⟨21, _⟩ => ⟨S40000x128, .f32⟩
  | .hbm, ⟨22, _⟩ => ⟨S_, .f32⟩
  | .hbm, ⟨23, _⟩ => ⟨S640000, .f32⟩
  | .hbm, ⟨24, _⟩ => ⟨S_, .f32⟩
  | .hbm, ⟨25, _⟩ => ⟨S40000, .f32⟩
  | .hbm, ⟨26, _⟩ => ⟨S640000x1, .i32⟩
  | .hbm, ⟨27, _⟩ => ⟨S40000, .f32⟩
  | .hbm, ⟨28, _⟩ => ⟨S_, .f32⟩
  | .hbm, ⟨29, _⟩ => ⟨S40000, .f32⟩
  | .hbm, ⟨30, _⟩ => ⟨S40000, .f32⟩
  | .hbm, ⟨31, _⟩ => ⟨S40000x1, .f32⟩
  | .hbm, ⟨32, _⟩ => ⟨S40000x128, .f32⟩
  | .hbm, ⟨33, _⟩ => ⟨S40000x128, .f32⟩
  | .hbm, ⟨34, _⟩ => ⟨S40000x128, .f32⟩
  | .hbm, ⟨35, _⟩ => ⟨S1x128, .f32⟩
  | .hbm, ⟨36, _⟩ => ⟨S1x128, .f32⟩
  | .hbm, ⟨37, _⟩ => ⟨S128, .f32⟩
  | .hbm, ⟨38, _⟩ => ⟨S_, .f32⟩
  | .hbm, ⟨39, _⟩ => ⟨S128, .f32⟩
  | .hbm, ⟨40, _⟩ => ⟨S128, .f32⟩
  | .hbm, ⟨41, _⟩ => ⟨S128, .f32⟩
  | .hbm, ⟨42, _⟩ => ⟨S_, .f32⟩
  | .hbm, ⟨43, _⟩ => ⟨S128, .f32⟩
  | .hbm, ⟨44, _⟩ => ⟨S128, .f32⟩
  | .hbm, ⟨45, _⟩ => ⟨S128, .f32⟩
  | .hbm, ⟨46, _⟩ => ⟨S128, .f32⟩
  | .hbm, ⟨47, _⟩ => ⟨S_, .f32⟩
  | .hbm, ⟨48, _⟩ => ⟨S128, .f32⟩
  | .hbm, ⟨49, _⟩ => ⟨S128, .f32⟩
  | .hbm, ⟨50, _⟩ => ⟨S128, .f32⟩
  | .hbm, ⟨51, _⟩ => ⟨S128, .f32⟩
  | .hbm, ⟨52, _⟩ => ⟨S1x128, .f32⟩
  | .hbm, ⟨53, _⟩ => ⟨S128, .f32⟩
  | .hbm, ⟨54, _⟩ => ⟨S128, .f32⟩
  | .hbm, ⟨55, _⟩ => ⟨S128, .f32⟩
  | .hbm, ⟨56, _⟩ => ⟨S1x128, .f32⟩
  | .hbm, ⟨57, _⟩ => ⟨S40000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S128, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19_0 : Ref sig .tc := ⟨.hbm, 34, rfl⟩
abbrev main_v19_1 : Ref sig .tc := ⟨.hbm, 35, rfl⟩
abbrev main_v19_2 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg4_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem4_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  inb_S1x128_S1x128_0_0 : ∀ a, (![0, 0] : Fin 2 → Nat) a + S1x128.size a ≤ S1x128.size a
  h_S1x128 : 0 < S1x128.numel
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x1_S5000x1_0_0 : ∀ a, (![0, 0] : Fin 2 → Nat) a + S5000x1.size a ≤ S5000x1.size a
  h_S5000x1 : 0 < S5000x1.numel
  broadcasts_S5000x1_S5000x128 : S5000x1.Broadcasts S5000x128
  shapeCasts_S1x128_S1x128 : S1x128.ShapeCasts S1x128
  reduces_S5000x128_S128 : S5000x128.Reduces [0] S128
  shapeCasts_S1x128_S128 : S1x128.ShapeCasts S128
  bcast_S_S128 : S_.BroadcastsInDim S128 (![] : Fin 0 → Fin S128.rank)
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S40000x128.size a
  hwx0_0 : ∀ i : grid0.Coords, EltTy.bits .f32 = 32 ∨ (Rect.block (s := S40000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S40000x128.size a
  hwx0_1 : ∀ i : grid0.Coords, EltTy.bits .f32 = 32 ∨ (Rect.block (s := S40000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S40000x1.size a
  hwx0_2 : ∀ i : grid0.Coords, EltTy.bits .f32 = 32 ∨ (Rect.block (s := S40000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S40000x128.size a
  hwx0_6 : ∀ i : grid0.Coords, EltTy.bits .f32 = 32 ∨ (Rect.block (s := S40000x128) S5000x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S40000x128.size a
  hwx1_0 : ∀ i : grid1.Coords, EltTy.bits .f32 = 32 ∨ (Rect.block (s := S40000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S40000x128.size a
  hwx1_1 : ∀ i : grid1.Coords, EltTy.bits .f32 = 32 ∨ (Rect.block (s := S40000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S40000x128.size a
  hwx1_4 : ∀ i : grid1.Coords, EltTy.bits .f32 = 32 ∨ (Rect.block (s := S40000x128) S5000x128.size (cc1_transform_4 i) (hinb1_4 i)).WholeWords (EltTy.packing .f32)

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19_0) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v19_1) S1x128.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v19_2) S1x128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v19_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S40000x128 : Shape := ⟨2, ![40000, 128]⟩
abbrev S40000x1 : Shape := ⟨2, ![40000, 1]⟩
abbrev S128x128 : Shape := ⟨2, ![128, 128]⟩
abbrev S128 : Shape := ⟨1, ![128]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S40000 : Shape := ⟨1, ![40000]⟩
abbrev S1x128 : Shape := ⟨2, ![1, 128]⟩

abbrev nBuf : Space → Nat
  | .hbm => 90
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S40000x1, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S640000, .i32⟩
  | .hbm, ⟨8, _⟩ => ⟨S640000, .i32⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S640000x128, .f32⟩
  | .hbm, ⟨18, _⟩ => ⟨S_, .f32⟩
  | .hbm, ⟨19, _⟩ => ⟨S40000x128, .f32⟩
  | .hbm, ⟨20, _⟩ => ⟨S640000x1, .i32⟩
  | .hbm, ⟨21, _⟩ => ⟨S40000x128, .f32⟩
  | .hbm, ⟨22, _⟩ => ⟨S_, .f32⟩
  | .hbm, ⟨23, _⟩ => ⟨S640000, .f32⟩
  | .hbm, ⟨24, _⟩ => ⟨S_, .f32⟩
  | .hbm, ⟨25, _⟩ => ⟨S40000, .f32⟩
  | .hbm, ⟨26, _⟩ => ⟨S640000x1, .i32⟩
  | .hbm, ⟨27, _⟩ => ⟨S40000, .f32⟩
  | .hbm, ⟨28, _⟩ => ⟨S_, .f32⟩
  | .hbm, ⟨29, _⟩ => ⟨S40000, .f32⟩
  | .hbm, ⟨30, _⟩ => ⟨S40000, .f32⟩
  | .hbm, ⟨31, _⟩ => ⟨S40000x1, .f32⟩
  | .hbm, ⟨32, _⟩ => ⟨S40000x128, .f32⟩
  | .hbm, ⟨33, _⟩ => ⟨S40000x128, .f32⟩
  | .hbm, ⟨34, _⟩ => ⟨S40000x128, .f32⟩
  | .hbm, ⟨35, _⟩ => ⟨S40000x128, .f32⟩
  | .hbm, ⟨36, _⟩ => ⟨S40000x128, .f32⟩
  | .hbm, ⟨37, _⟩ => ⟨S1x128, .f32⟩
  | .hbm, ⟨38, _⟩ => ⟨S40000x128, .f32⟩
  | .hbm, ⟨39, _⟩ => ⟨S40000x128, .f32⟩
  | .hbm, ⟨40, _⟩ => ⟨S_, .f32⟩
  | .hbm, ⟨41, _⟩ => ⟨S40000x128, .f32⟩
  | .hbm, ⟨42, _⟩ => ⟨S40000x128, .f32⟩
  | .hbm, ⟨43, _⟩ => ⟨S40000x128, .f32⟩
  | .hbm, ⟨44, _⟩ => ⟨S40000x128, .f32⟩
  | .hbm, ⟨45, _⟩ => ⟨S_, .f32⟩
  | .hbm, ⟨46, _⟩ => ⟨S128, .f32⟩
  | .hbm, ⟨47, _⟩ => ⟨S_, .f32⟩
  | .hbm, ⟨48, _⟩ => ⟨S128, .f32⟩
  | .hbm, ⟨49, _⟩ => ⟨S128, .f32⟩
  | .hbm, ⟨50, _⟩ => ⟨S_, .i32⟩
  | .hbm, ⟨51, _⟩ => ⟨S_, .f32⟩
  | .hbm, ⟨52, _⟩ => ⟨S128, .f32⟩
  | .hbm, ⟨53, _⟩ => ⟨S1x128, .f32⟩
  | .hbm, ⟨54, _⟩ => ⟨S_, .f32⟩
  | .hbm, ⟨55, _⟩ => ⟨S1x128, .f32⟩
  | .hbm, ⟨56, _⟩ => ⟨S1x128, .f32⟩
  | .hbm, ⟨57, _⟩ => ⟨S40000x128, .f32⟩
  | .hbm, ⟨58, _⟩ => ⟨S40000x128, .f32⟩
  | .hbm, ⟨59, _⟩ => ⟨S40000x128, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S128, .f32⟩
  | .hbm, ⟨65, _⟩ => ⟨S128, .f32⟩
  | .hbm, ⟨66, _⟩ => ⟨S128, .f32⟩
  | .hbm, ⟨67, _⟩ => ⟨S_, .f32⟩
  | .hbm, ⟨68, _⟩ => ⟨S_, .i1⟩
  | .hbm, ⟨69, _⟩ => ⟨S_, .f32⟩
  | .hbm, ⟨70, _⟩ => ⟨S_, .f32⟩
  | .hbm, ⟨71, _⟩ => ⟨S128, .f32⟩
  | .hbm, ⟨72, _⟩ => ⟨S128, .f32⟩
  | .hbm, ⟨73, _⟩ => ⟨S1x128, .f32⟩
  | .hbm, ⟨74, _⟩ => ⟨S40000x128, .f32⟩
  | .hbm, ⟨75, _⟩ => ⟨S40000x128, .f32⟩
  | .hbm, ⟨76, _⟩ => ⟨S_, .f32⟩
  | .hbm, ⟨77, _⟩ => ⟨S128, .f32⟩
  | .hbm, ⟨78, _⟩ => ⟨S128, .f32⟩
  | .hbm, ⟨79, _⟩ => ⟨S128, .f32⟩
  | .hbm, ⟨80, _⟩ => ⟨S1x128, .f32⟩
  | .hbm, ⟨81, _⟩ => ⟨S40000x128, .f32⟩
  | .hbm, ⟨82, _⟩ => ⟨S40000x128, .f32⟩
  | .hbm, ⟨83, _⟩ => ⟨S1x128, .f32⟩
  | .hbm, ⟨84, _⟩ => ⟨S40000x128, .f32⟩
  | .hbm, ⟨85, _⟩ => ⟨S40000x128, .f32⟩
  | .hbm, ⟨86, _⟩ => ⟨S1x128, .f32⟩
  | .hbm, ⟨87, _⟩ => ⟨S40000x128, .f32⟩
  | .hbm, ⟨88, _⟩ => ⟨S40000x128, .f32⟩
  | .hbm, ⟨89, _⟩ => ⟨S40000x128, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_cst : Ref sig .tc := ⟨.hbm, 40, rfl⟩
abbrev main_call0_v0 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_cst_5 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_call1_cst : Ref sig .tc := ⟨.hbm, 51, rfl⟩
abbrev main_call1_v0 : Ref sig .tc := ⟨.hbm, 52, rfl⟩
abbrev main_call1_v1 : Ref sig .tc := ⟨.hbm, 53, rfl⟩
abbrev main_call1_cst_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_v6 : Ref sig .tc := ⟨.hbm, 59, rfl⟩
abbrev main_call1_v7 : Ref sig .tc := ⟨.hbm, 60, rfl⟩
abbrev main_call1_cst_1 : Ref sig .tc := ⟨.hbm, 61, rfl⟩
abbrev main_call1_v8 : Ref sig .tc := ⟨.hbm, 62, rfl⟩
abbrev main_call1_cst_2 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_cst_3 : Ref sig .tc := ⟨.hbm, 67, rfl⟩
abbrev main_call1_v12 : Ref sig .tc := ⟨.hbm, 68, rfl⟩
abbrev main_call1_cst_4 : Ref sig .tc := ⟨.hbm, 69, rfl⟩
abbrev main_call1_call0_v0 : Ref sig .tc := ⟨.hbm, 70, rfl⟩
abbrev main_call1_call0_v1 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_cst_7 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  reducesTo_S40000x128_S128_d0 : S40000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  dot_S40000x128_S128x128_S40000x128_1_0_0_1_n_n_wf : DotDims.WF S40000x128 S128x128 S40000x128 [1] [0] [0] [1] [] []

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf

class Facts : Prop extends Facts₀ where

variable [Facts]
-- ==== Proof.Algebra.lean ====
/-
  Batch normalisation, two ways, on the extended reals.

  For a column `y` of finitely many real numbers with mean `μ = (∑ y) / C`:
    * the reference form subtracts the mean first: `h + ((y i − μ) · r · γ + β)` with `r = rsqrt (V + ε)` and the
      variance `V = (∑ (y − μ)²) / C`;
    * the kernel form folds the mean into a scale and a shift: `(y i · (γ · r') + (β − μ · γ · r')) + h` with
      `r' = rsqrt ((∑ y²) / C − μ² + ε)`.
  When `C` is the number of entries the two variances are one real number (`∑ (y − μ)² = ∑ y² − C μ²`), it is
  not negative, so `V + ε` is positive and `r = r'` is a real number; the two forms then differ by the
  distributive law, which holds among real numbers.
-/
import Idealize.ShloMosaic.PureOps.Ideal
import Idealize.ShloMosaic.PureOps.Ideal.Laws

noncomputable section

open scoped BigOperators

namespace Cert.BN

open Idealize.ShloMosaic

/-- Every entry of an array of extended reals is a real number. -/
def IsReal {s : Shape} (x : s.Idx → EReal) : Prop := ∀ j, ∃ r : ℝ, x j = (r : EReal)

variable {ι : Type} [Fintype ι]

/-- The reference's form: centre, scale by the inverse deviation, scale by `γ`, shift by `β`, add the input. -/
def refForm (c ε : EReal) (y : ι → EReal) (h γ β : EReal) (i : ι) : EReal :=
  h + (((y i - Ideal.div (∑ j, y j) c)
          * Ideal.rsqrt (Ideal.div (∑ j, (y j - Ideal.div (∑ k, y k) c) * (y j - Ideal.div (∑ k, y k) c)) c + ε))
        * γ + β)

/-- The kernel's form: one scale and one shift per column, from the sum and the sum of squares. -/
def kerForm (c ε : EReal) (y : ι → EReal) (h γ β : EReal) (i : ι) : EReal :=
  (y i * (γ * Ideal.rsqrt ((Ideal.div (∑ j, y j * y j) c - Ideal.div (∑ j, y j) c * Ideal.div (∑ j, y j) c) + ε))
      + (β - (Ideal.div (∑ j, y j) c * γ)
              * Ideal.rsqrt ((Ideal.div (∑ j, y j * y j) c - Ideal.div (∑ j, y j) c * Ideal.div (∑ j, y j) c) + ε)))
    + h

/-- A finite sum of real numbers, read among the extended reals, is the sum of their readings. -/
theorem coe_sum (s : Finset ι) (f : ι → ℝ) :
    (∑ j ∈ s, (f j : EReal)) = ((∑ j ∈ s, f j : ℝ) : EReal) := by
  classical
  induction s using Finset.induction_on with
  | empty => simp
  | insert a s ha ih => rw [Finset.sum_insert ha, Finset.sum_insert ha, ih, EReal.coe_add]

/-- The inverse square root of a positive real number is a real number. -/
theorem rsqrt_coe_pos {r : ℝ} (hr : 0 < r) :
    Ideal.rsqrt (r : EReal) = (((Real.sqrt r)⁻¹ : ℝ) : EReal) := by
  rw [Ideal.rsqrt_coe, if_neg (not_lt.mpr hr.le), if_neg hr.ne']

/-- The variance two ways: the mean of the squared deviations is the mean of the squares less the square of
    the mean, when `C` is the number of entries. -/
theorem var_identity (C : ℝ) (hC : (Fintype.card ι : ℝ) = C) (hC0 : 0 < C) (y : ι → ℝ) :
    (∑ j, (y j - (∑ k, y k) * (1 / C)) * (y j - (∑ k, y k) * (1 / C))) * (1 / C)
      = (∑ j, y j * y j) * (1 / C) - (∑ k, y k) * (1 / C) * ((∑ k, y k) * (1 / C)) := by
  have hCne : C ≠ 0 := hC0.ne'
  have h1 : ∀ m : ℝ, (∑ j, (y j - m) * (y j - m)) = (∑ j, y j * y j) - 2 * m * (∑ j, y j) + C * (m * m) := by
    intro m
    have h2 : ∀ j, (y j - m) * (y j - m) = y j * y j - 2 * m * y j + m * m := by intro j; ring
    simp_rw [h2, Finset.sum_add_distrib, Finset.sum_sub_distrib, ← Finset.mul_sum, Finset.sum_const,
      Finset.card_univ, nsmul_eq_mul, hC]
    ring
  rw [h1]
  generalize (∑ k, y k) = S
  generalize (∑ j, y j * y j) = Q
  field_simp
  ring

/-- The mean of the squared deviations is not negative. -/
theorem var_nonneg (C : ℝ) (hC0 : 0 < C) (y : ι → ℝ) (m : ℝ) :
    0 ≤ (∑ j, (y j - m) * (y j - m)) * (1 / C) :=
  mul_nonneg (Finset.sum_nonneg (fun j _ => mul_self_nonneg _)) (by positivity)

/-- On real entries, with `C` the number of entries and `ε` positive, the two forms are one extended real. -/
theorem kerForm_eq_refForm (C ε : ℝ) (hC : (Fintype.card ι : ℝ) = C) (hC0 : 0 < C) (hε : 0 < ε)
    (y : ι → ℝ) (h γ β : ℝ) (i : ι) :
    kerForm (C : EReal) (ε : EReal) (fun j => (y j : EReal)) (h : EReal) (γ : EReal) (β : EReal) i
      = refForm (C : EReal) (ε : EReal) (fun j => (y j : EReal)) (h : EReal) (γ : EReal) (β : EReal) i := by
  have hCne : C ≠ 0 := hC0.ne'
  have hpos : 0 < (∑ j, (y j - (∑ k, y k) * (1 / C)) * (y j - (∑ k, y k) * (1 / C))) * (1 / C) + ε :=
    add_pos_of_nonneg_of_pos (var_nonneg C hC0 y _) hε
  unfold kerForm refForm
  simp only [Ideal.div_coe hCne, ← EReal.coe_mul, ← EReal.coe_sub, coe_sum, ← EReal.coe_add]
  rw [← var_identity C hC hC0 y, rsqrt_coe_pos hpos]
  simp only [← EReal.coe_mul, ← EReal.coe_sub, ← EReal.coe_add]
  congr 1
  ring

end Cert.BN

end
-- ==== Proof.RefSpec.lean ====
/-
  The mathematics both programs compute, written once over the reference's host operations.

  A graph layer with mean aggregation followed by batch normalisation over the nodes:
    * `hneigh`: every node's mean over its incoming edges of the source rows of `h` (a row gather by `src`,
      a row scatter-add into the node of `dst`, divided by the in-degree, at least one);
    * `act`: `relu (h · W_self + hneigh · W_neigh + b)`, every row scaled by its graph-norm factor;
    * `refOut`: `h + ((act − mean) · rsqrt (var + ε) · γ + β)`, with the mean and the (biased) variance of
      each column of `act` over the 40000 nodes, the variance as the mean of the squared deviations.
-/
import proofs.«142134_j58609123721516_1_alg».proof.ReferenceIdeal
import proofs.«142134_j58609123721516_1_alg».proof.Proof.Gen.ReferenceIdeal

noncomputable section

namespace Cert.RefSpec

open Idealize.ShloMosaic Cert.ReferenceIdeal Cert.ReferenceIdeal.Gen

variable {F : FTy → Type} [FloatOps F]

/-- The edge sources as a column of gather starts, a negative index first wrapped by the number of nodes. -/
def srcCol (src : IVec S640000 32) : IVec S640000x1 32 :=
  broadcastInDim S640000x1 ![0] bcast_S640000_S640000x1_0
    (select (cmpi .slt src (broadcastInDim S640000 ![] bcast_S_S640000 (constantI S_ 32 0#32)))
      (addi src (broadcastInDim S640000 ![] bcast_S_S640000 (constantI S_ 32 40000#32))) src)

/-- The edge targets as a column of scatter indices. -/
def dstCol (dst : IVec S640000 32) : IVec S640000x1 32 :=
  broadcastInDim S640000x1 ![0] bcast_S640000_S640000x1_0 dst

/-- One row of `h` per edge: the source node's. -/
def msg (h : FVec F S40000x128 .f32) (src : IVec S640000 32) : FVec F S640000x128 .f32 :=
  Host.gather gather_S40000x128_S640000x1_S640000x128_1_0_n_n_0_1_1128 h (srcCol src)

/-- Per node, the sum of the rows of its incoming edges. -/
def agg (h : FVec F S40000x128 .f32) (src dst : IVec S640000 32) : FVec F S40000x128 .f32 :=
  Host.scatterAdd scatter_S40000x128_S640000x1_S640000x128_1_0_0_1
    (broadcastInDim S40000x128 ![] bcast_S_S40000x128 (constant S_ .f32 0x00000000#32)) (dstCol dst) (msg h src)

/-- Per node, the number of its incoming edges. -/
def deg (dst : IVec S640000 32) : FVec F S40000 .f32 :=
  Host.scatterAdd scatter_S40000_S640000x1_S640000_n_0_0_1
    (broadcastInDim S40000 ![] bcast_S_S40000 (constant S_ .f32 0x00000000#32)) (dstCol dst)
    (broadcastInDim S640000 ![] bcast_S_S640000 (constant S_ .f32 0x3F800000#32))

/-- The in-degree, at least one, laid across the 128 columns. -/
def degWide (dst : IVec S640000 32) : FVec F S40000x128 .f32 :=
  broadcastInDim S40000x128 ![0, 1] bcast_S40000x1_S40000x128_0_1
    (broadcastInDim S40000x1 ![0] bcast_S40000_S40000x1_0
      (maximumf (deg dst) (broadcastInDim S40000 ![] bcast_S_S40000 (constant S_ .f32 0x3F800000#32))))

/-- The mean of the incoming rows. -/
def hneigh (h : FVec F S40000x128 .f32) (src dst : IVec S640000 32) : FVec F S40000x128 .f32 :=
  Host.divf (agg h src dst) (degWide dst)

/-- The dense layer on given neighbour means: `relu (h · Ws + hn · Wn + b) · snorm`. -/
def actOf (h hn : FVec F S40000x128 .f32) (snorm : FVec F S40000x1 .f32) (Ws Wn : FVec F S128x128 .f32)
    (b : FVec F S128 .f32) : FVec F S40000x128 .f32 :=
  mulf
    (maximumf
      (addf
        (addf (Host.dotGeneral dot_S40000x128_S128x128_S40000x128_1_0_0_1_n_n none h Ws)
          (Host.dotGeneral dot_S40000x128_S128x128_S40000x128_1_0_0_1_n_n none hn Wn))
        (broadcastInDim S40000x128 ![0, 1] bcast_S1x128_S40000x128_0_1 (broadcastInDim S1x128 ![1] bcast_S128_S1x128_1 b)))
      (broadcastInDim S40000x128 ![] bcast_S_S40000x128 (constant S_ .f32 0x00000000#32)))
    (broadcastInDim S40000x128 ![0, 1] bcast_S40000x1_S40000x128_0_1 snorm)

/-- The activations before normalisation. -/
def act (h : FVec F S40000x128 .f32) (snorm : FVec F S40000x1 .f32) (Ws Wn : FVec F S128x128 .f32)
    (b : FVec F S128 .f32) (src dst : IVec S640000 32) : FVec F S40000x128 .f32 :=
  actOf h (hneigh h src dst) snorm Ws Wn b

/-- A row of 128 laid under each of the 40000 rows. -/
def rowWide (v : FVec F S128 .f32) : FVec F S40000x128 .f32 :=
  broadcastInDim S40000x128 ![0, 1] bcast_S1x128_S40000x128_0_1 (broadcastInDim S1x128 ![1] bcast_S128_S1x128_1 v)

/-- The column sums of an array (from the zero word). -/
def colSum (y : FVec F S40000x128 .f32) : FVec F S128 .f32 :=
  Host.reduceAdd y (constant S_ .f32 0x00000000#32) reducesTo_S40000x128_S128_d0 h_S_

/-- The column means: the sums over 40000. -/
def colMean (y : FVec F S40000x128 .f32) : FVec F S128 .f32 :=
  Host.divf (colSum y) (broadcastInDim S128 ![] bcast_S_S128 (constant S_ .f32 0x471C4000#32))

/-- The count the variance divides by: 40000 less the zero degrees of freedom. -/
def varCount : FVec F S_ .f32 :=
  subf (constant S_ .f32 0x471C4000#32) (sitofp .f32 (constantI S_ 32 0#32))

/-- The deviations from the column means as the variance computes them (its own mean, kept as a row). -/
def dev (y : FVec F S40000x128 .f32) : FVec F S40000x128 .f32 :=
  subf y
    (broadcastInDim S40000x128 ![0, 1] bcast_S1x128_S40000x128_0_1
      (Host.divf (broadcastInDim S1x128 ![1] bcast_S128_S1x128_1 (colSum y))
        (broadcastInDim S1x128 ![] bcast_S_S1x128 (constant S_ .f32 0x471C4000#32))))

/-- The column variances: the mean of the squared deviations, where the count is positive (it is). -/
def colVar (y : FVec F S40000x128 .f32) : FVec F S128 .f32 :=
  select (broadcastInDim S128 ![] bcast_S_S128 (cmpf .ogt (varCount (F := F)) (constant S_ .f32 0x00000000#32)))
    (Host.divf (colSum (mulf (dev y) (dev y))) (broadcastInDim S128 ![] bcast_S_S128 (varCount (F := F))))
    (broadcastInDim S128 ![] bcast_S_S128 (id (constant S_ .f32 0x7FC00000#32)))

/-- The normalised, scaled, shifted activations added to the input. -/
def bnOut (h y : FVec F S40000x128 .f32) (γ β : FVec F S128 .f32) : FVec F S40000x128 .f32 :=
  addf h
    (addf
      (mulf
        (mulf (subf y (rowWide (colMean y)))
          (rowWide (Host.rsqrt (addf (colVar y) (broadcastInDim S128 ![] bcast_S_S128 (constant S_ .f32 0x3727C5AC#32))))))
        (rowWide γ))
      (rowWide β))

/-- What the reference returns. -/
def refOut (h : FVec F S40000x128 .f32) (snorm : FVec F S40000x1 .f32) (Ws Wn : FVec F S128x128 .f32)
    (b γ β : FVec F S128 .f32) (src dst : IVec S640000 32) : FVec F S40000x128 .f32 :=
  bnOut h (act h snorm Ws Wn b src dst) γ β

end Cert.RefSpec

end
-- ==== Proof.RefRun.lean ====
/-
  The reference, run: its @main is a straight line of host operations (the three outlined functions opened at their
  calls), so every weakly fair execution ends with each buffer at the operations' composed value; the result buffer
  holds `RefSpec.refOut` of the arguments, and no argument is written.
-/
import proofs.«142134_j58609123721516_1_alg».proof.Proof.RefSpec
import Idealize.ShloMosaic.Lib.StableHlo.Run

noncomputable section

namespace Cert.RefRun

open Idealize.ShloMosaic Idealize.SL.Sem Idealize.ShloMosaic.StableHlo
open Cert.ReferenceIdeal Cert.ReferenceIdeal.Gen

variable {F : FTy → Type} [FloatOps F]

/-- @main's eighty-one operations in order, the calls opened: thirty-one of its own up to the pre-activation, the
    rectifier's three (the zero, its broadcast, the maximum), the scaling by the graph-norm factor and the column mean
    (eight, with the zero degrees of freedom), the variance's nineteen (column sum, mean as a row, deviations, their
    squares, the count, the second column sum, the quotient, the comparison of the count with zero, the NaN word) and
    its selection's three (the NaN converted to its own type, broadcast, the select), then the seventeen of the
    normalisation, scale, shift and residual sum. -/
abbrev ops : List (HloOp τ sig (Elt F)) :=
  [ nullary main_c (constantI S_ 32 0#32),
    unary main_c main_v0 (broadcastInDim S640000 ![] bcast_S_S640000 : (⟨S_, .i32⟩ : BufTy).Contents (Elt F) → (⟨S640000, .i32⟩ : BufTy).Contents (Elt F)),
    binary main_arg7 main_v0 main_v1 (cmpi .slt : (⟨S640000, .i32⟩ : BufTy).Contents (Elt F) → (⟨S640000, .i32⟩ : BufTy).Contents (Elt F) → (⟨S640000, .i1⟩ : BufTy).Contents (Elt F)),
    nullary main_c_0 (constantI S_ 32 40000#32),
    unary main_c_0 main_v2 (broadcastInDim S640000 ![] bcast_S_S640000 : (⟨S_, .i32⟩ : BufTy).Contents (Elt F) → (⟨S640000, .i32⟩ : BufTy).Contents (Elt F)),
    binary main_arg7 main_v2 main_v3 (addi : (⟨S640000, .i32⟩ : BufTy).Contents (Elt F) → (⟨S640000, .i32⟩ : BufTy).Contents (Elt F) → (⟨S640000, .i32⟩ : BufTy).Contents (Elt F)),
    ternary main_v1 main_v3 main_arg7 main_v4 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v4 main_v5 (broadcastInDim S640000x1 ![0] bcast_S640000_S640000x1_0 : (⟨S640000, .i32⟩ : BufTy).Contents (Elt F) → (⟨S640000x1, .i32⟩ : BufTy).Contents (Elt F)),
    binary main_arg0 main_v5 main_v6 ((fun x i => Host.gather gather_S40000x128_S640000x1_S640000x128_1_0_n_n_0_1_1128 x i) : (⟨S40000x128, .f32⟩ : BufTy).Contents (Elt F) → (⟨S640000x1, .i32⟩ : BufTy).Contents (Elt F) → (⟨S640000x128, .f32⟩ : BufTy).Contents (Elt F)),
    nullary main_cst (constant S_ .f32 0x00000000#32),
    unary main_cst main_v7 (broadcastInDim S40000x128 ![] bcast_S_S40000x128 : (⟨S_, .f32⟩ : BufTy).Contents (Elt F) → (⟨S40000x128, .f32⟩ : BufTy).Contents (Elt F)),
    unary main_arg8 main_v8 (broadcastInDim S640000x1 ![0] bcast_S640000_S640000x1_0 : (⟨S640000, .i32⟩ : BufTy).Contents (Elt F) → (⟨S640000x1, .i32⟩ : BufTy).Contents (Elt F)),
    ternary main_v7 main_v8 main_v6 main_v9 ((fun x i u => Host.scatterAdd scatter_S40000x128_S640000x1_S640000x128_1_0_0_1 x i u) : (⟨S40000x128, .f32⟩ : BufTy).Contents (Elt F) → (⟨S640000x1, .i32⟩ : BufTy).Contents (Elt F) → (⟨S640000x128, .f32⟩ : BufTy).Contents (Elt F) → (⟨S40000x128, .f32⟩ : BufTy).Contents (Elt F)),
    nullary main_cst_1 (constant S_ .f32 0x3F800000#32),
    unary main_cst_1 main_v10 (broadcastInDim S640000 ![] bcast_S_S640000 : (⟨S_, .f32⟩ : BufTy).Contents (Elt F) → (⟨S640000, .f32⟩ : BufTy).Contents (Elt F)),
    nullary main_cst_2 (constant S_ .f32 0x00000000#32),
    unary main_cst_2 main_v11 (broadcastInDim S40000 ![] bcast_S_S40000 : (⟨S_, .f32⟩ : BufTy).Contents (Elt F) → (⟨S40000, .f32⟩ : BufTy).Contents (Elt F)),
    unary main_arg8 main_v12 (broadcastInDim S640000x1 ![0] bcast_S640000_S640000x1_0 : (⟨S640000, .i32⟩ : BufTy).Contents (Elt F) → (⟨S640000x1, .i32⟩ : BufTy).Contents (Elt F)),
    ternary main_v11 main_v12 main_v10 main_v13 ((fun x i u => Host.scatterAdd scatter_S40000_S640000x1_S640000_n_0_0_1 x i u) : (⟨S40000, .f32⟩ : BufTy).Contents (Elt F) → (⟨S640000x1, .i32⟩ : BufTy).Contents (Elt F) → (⟨S640000, .f32⟩ : BufTy).Contents (Elt F) → (⟨S40000, .f32⟩ : BufTy).Contents (Elt F)),
    nullary main_cst_3 (constant S_ .f32 0x3F800000#32),
    unary main_cst_3 main_v14 (broadcastInDim S40000 ![] bcast_S_S40000 : (⟨S_, .f32⟩ : BufTy).Contents (Elt F) → (⟨S40000, .f32⟩ : BufTy).Contents (Elt F)),
    binary main_v13 main_v14 main_v15 (maximumf : (⟨S40000, .f32⟩ : BufTy).Contents (Elt F) → (⟨S40000, .f32⟩ : BufTy).Contents (Elt F) → (⟨S40000, .f32⟩ : BufTy).Contents (Elt F)),
    unary main_v15 main_v16 (broadcastInDim S40000x1 ![0] bcast_S40000_S40000x1_0 : (⟨S40000, .f32⟩ : BufTy).Contents (Elt F) → (⟨S40000x1, .f32⟩ : BufTy).Contents (Elt F)),
    unary main_v16 main_v17 (broadcastInDim S40000x128 ![0, 1] bcast_S40000x1_S40000x128_0_1 : (⟨S40000x1, .f32⟩ : BufTy).Contents (Elt F) → (⟨S40000x128, .f32⟩ : BufTy).Contents (Elt F)),
    binary main_v9 main_v17 main_v18 (Host.divf : (⟨S40000x128, .f32⟩ : BufTy).Contents (Elt F) → (⟨S40000x128, .f32⟩ : BufTy).Contents (Elt F) → (⟨S40000x128, .f32⟩ : BufTy).Contents (Elt F)),
    binary main_arg0 main_arg2 main_v19 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    binary main_v18 main_arg3 main_v20 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    binary main_v19 main_v20 main_v21 (addf : (⟨S40000x128, .f32⟩ : BufTy).Contents (Elt F) → (⟨S40000x128, .f32⟩ : BufTy).Contents (Elt F) → (⟨S40000x128, .f32⟩ : BufTy).Contents (Elt F)),
    unary main_arg4 main_v22 (broadcastInDim S1x128 ![1] bcast_S128_S1x128_1 : (⟨S128, .f32⟩ : BufTy).Contents (Elt F) → (⟨S1x128, .f32⟩ : BufTy).Contents (Elt F)),
    unary main_v22 main_v23 (broadcastInDim S40000x128 ![0, 1] bcast_S1x128_S40000x128_0_1 : (⟨S1x128, .f32⟩ : BufTy).Contents (Elt F) → (⟨S40000x128, .f32⟩ : BufTy).Contents (Elt F)),
    binary main_v21 main_v23 main_v24 (addf : (⟨S40000x128, .f32⟩ : BufTy).Contents (Elt F) → (⟨S40000x128, .f32⟩ : BufTy).Contents (Elt F) → (⟨S40000x128, .f32⟩ : BufTy).Contents (Elt F)),
    TRef.nullary main_call0.cst (constant S_ .f32 0x00000000#32),
    TRef.unary main_call0.cst main_call0.v0 (broadcastInDim S40000x128 ![] bcast_S_S40000x128),
    TRef.binary (.of main_v24 : TRef sig ⟨S40000x128, .f32⟩) main_call0.v0 main_call0.v1 maximumf,
    unary main_arg1 main_v26 (broadcastInDim S40000x128 ![0, 1] bcast_S40000x1_S40000x128_0_1 : (⟨S40000x1, .f32⟩ : BufTy).Contents (Elt F) → (⟨S40000x128, .f32⟩ : BufTy).Contents (Elt F)),
    binary main_v25 main_v26 main_v27 (mulf : (⟨S40000x128, .f32⟩ : BufTy).Contents (Elt F) → (⟨S40000x128, .f32⟩ : BufTy).Contents (Elt F) → (⟨S40000x128, .f32⟩ : BufTy).Contents (Elt F)),
    nullary main_cst_4 (constant S_ .f32 0x00000000#32),
    binary main_v27 main_cst_4 main_v28 ((fun x v => Host.reduceAdd x v reducesTo_S40000x128_S128_d0 h_S_) : (⟨S40000x128, .f32⟩ : BufTy).Contents (Elt F) → (⟨S_, .f32⟩ : BufTy).Contents (Elt F) → (⟨S128, .f32⟩ : BufTy).Contents (Elt F)),
    nullary main_cst_5 (constant S_ .f32 0x471C4000#32),
    unary main_cst_5 main_v29 (broadcastInDim S128 ![] bcast_S_S128 : (⟨S_, .f32⟩ : BufTy).Contents (Elt F) → (⟨S128, .f32⟩ : BufTy).Contents (Elt F)),
    binary main_v28 main_v29 main_v30 (Host.divf : (⟨S128, .f32⟩ : BufTy).Contents (Elt F) → (⟨S128, .f32⟩ : BufTy).Contents (Elt F) → (⟨S128, .f32⟩ : BufTy).Contents (Elt F)),
    nullary main_c_6 (constantI S_ 32 0#32),
    TRef.nullary main_call1.cst (constant S_ .f32 0x00000000#32),
    TRef.binary (.of main_v27 : TRef sig ⟨S40000x128, .f32⟩) main_call1.cst main_call1.v0 (fun x v => Host.reduceAdd x v reducesTo_S40000x128_S128_d0 h_S_),
    TRef.unary main_call1.v0 main_call1.v1 (broadcastInDim S1x128 ![1] bcast_S128_S1x128_1),
    TRef.nullary main_call1.cst_0 (constant S_ .f32 0x471C4000#32),
    TRef.unary main_call1.cst_0 main_call1.v2 (broadcastInDim S1x128 ![] bcast_S_S1x128),
    TRef.binary main_call1.v1 main_call1.v2 main_call1.v3 Host.divf,
    TRef.unary main_call1.v3 main_call1.v4 (broadcastInDim S40000x128 ![0, 1] bcast_S1x128_S40000x128_0_1),
    TRef.binary (.of main_v27 : TRef sig ⟨S40000x128, .f32⟩) main_call1.v4 main_call1.v5 subf,
    TRef.binary main_call1.v5 main_call1.v5 main_call1.v6 mulf,
    TRef.unary (.of main_c_6 : TRef sig ⟨S_, .i32⟩) main_call1.v7 (sitofp .f32),
    TRef.nullary main_call1.cst_1 (constant S_ .f32 0x471C4000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S40000x128_S128_d0 h_S_),
    TRef.unary main_call1.v8 main_call1.v10 (broadcastInDim S128 ![] bcast_S_S128),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S128 ![] bcast_S_S128),
    TRef.ternary main_call1.v12 main_call1.v11 main_call1.call0.v1 main_call1.call0.v2 (fun p a b => select (broadcastInDim S128 ![] bcast_S_S128 p) a b),
    unary main_v30 main_v32 (broadcastInDim S1x128 ![1] bcast_S128_S1x128_1 : (⟨S128, .f32⟩ : BufTy).Contents (Elt F) → (⟨S1x128, .f32⟩ : BufTy).Contents (Elt F)),
    unary main_v32 main_v33 (broadcastInDim S40000x128 ![0, 1] bcast_S1x128_S40000x128_0_1 : (⟨S1x128, .f32⟩ : BufTy).Contents (Elt F) → (⟨S40000x128, .f32⟩ : BufTy).Contents (Elt F)),
    binary main_v27 main_v33 main_v34 (subf : (⟨S40000x128, .f32⟩ : BufTy).Contents (Elt F) → (⟨S40000x128, .f32⟩ : BufTy).Contents (Elt F) → (⟨S40000x128, .f32⟩ : BufTy).Contents (Elt F)),
    nullary main_cst_7 (constant S_ .f32 0x3727C5AC#32),
    unary main_cst_7 main_v35 (broadcastInDim S128 ![] bcast_S_S128 : (⟨S_, .f32⟩ : BufTy).Contents (Elt F) → (⟨S128, .f32⟩ : BufTy).Contents (Elt F)),
    binary main_v31 main_v35 main_v36 (addf : (⟨S128, .f32⟩ : BufTy).Contents (Elt F) → (⟨S128, .f32⟩ : BufTy).Contents (Elt F) → (⟨S128, .f32⟩ : BufTy).Contents (Elt F)),
    unary main_v36 main_v37 (Host.rsqrt : (⟨S128, .f32⟩ : BufTy).Contents (Elt F) → (⟨S128, .f32⟩ : BufTy).Contents (Elt F)),
    unary main_v37 main_v38 (broadcastInDim S1x128 ![1] bcast_S128_S1x128_1 : (⟨S128, .f32⟩ : BufTy).Contents (Elt F) → (⟨S1x128, .f32⟩ : BufTy).Contents (Elt F)),
    unary main_v38 main_v39 (broadcastInDim S40000x128 ![0, 1] bcast_S1x128_S40000x128_0_1 : (⟨S1x128, .f32⟩ : BufTy).Contents (Elt F) → (⟨S40000x128, .f32⟩ : BufTy).Contents (Elt F)),
    binary main_v34 main_v39 main_v40 (mulf : (⟨S40000x128, .f32⟩ : BufTy).Contents (Elt F) → (⟨S40000x128, .f32⟩ : BufTy).Contents (Elt F) → (⟨S40000x128, .f32⟩ : BufTy).Contents (Elt F)),
    unary main_arg5 main_v41 (broadcastInDim S1x128 ![1] bcast_S128_S1x128_1 : (⟨S128, .f32⟩ : BufTy).Contents (Elt F) → (⟨S1x128, .f32⟩ : BufTy).Contents (Elt F)),
    unary main_v41 main_v42 (broadcastInDim S40000x128 ![0, 1] bcast_S1x128_S40000x128_0_1 : (⟨S1x128, .f32⟩ : BufTy).Contents (Elt F) → (⟨S40000x128, .f32⟩ : BufTy).Contents (Elt F)),
    binary main_v40 main_v42 main_v43 (mulf : (⟨S40000x128, .f32⟩ : BufTy).Contents (Elt F) → (⟨S40000x128, .f32⟩ : BufTy).Contents (Elt F) → (⟨S40000x128, .f32⟩ : BufTy).Contents (Elt F)),
    unary main_arg6 main_v44 (broadcastInDim S1x128 ![1] bcast_S128_S1x128_1 : (⟨S128, .f32⟩ : BufTy).Contents (Elt F) → (⟨S1x128, .f32⟩ : BufTy).Contents (Elt F)),
    unary main_v44 main_v45 (broadcastInDim S40000x128 ![0, 1] bcast_S1x128_S40000x128_0_1 : (⟨S1x128, .f32⟩ : BufTy).Contents (Elt F) → (⟨S40000x128, .f32⟩ : BufTy).Contents (Elt F)),
    binary main_v43 main_v45 main_v46 (addf : (⟨S40000x128, .f32⟩ : BufTy).Contents (Elt F) → (⟨S40000x128, .f32⟩ : BufTy).Contents (Elt F) → (⟨S40000x128, .f32⟩ : BufTy).Contents (Elt F)),
    binary main_arg0 main_v46 main_v47 (addf : (⟨S40000x128, .f32⟩ : BufTy).Contents (Elt F) → (⟨S40000x128, .f32⟩ : BufTy).Contents (Elt F) → (⟨S40000x128, .f32⟩ : BufTy).Contents (Elt F)) ]

set_option maxRecDepth 4096 in
/-- @main is that straight line: with the functions' definitions opened at their calls and the records at their
    fields, sequencing a callee's steps before the rest is sequencing all of them in order, so both sides are one chain
    of the same steps. -/
theorem main_eq (c : Dev nD) : main (F := F) c = seq ops := by
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., unary_bufs_sub ..,
    binary_bufs_sub .., binary_bufs_sub .., binary_bufs_sub .., binary_bufs_sub .., unary_bufs_sub .., unary_bufs_sub ..,
    binary_bufs_sub .., nullary_bufs_sub .., unary_bufs_sub .., binary_bufs_sub .., unary_bufs_sub .., binary_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., binary_bufs_sub ..⟩

/-- Every weakly fair execution of @main terminates, each TensorCore buffer at the operations' fold over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

attribute [local irreducible] Host.reduceAdd Host.gather Host.scatterAdd in
set_option maxRecDepth 8192 in
set_option maxHeartbeats 4000000 in
/-- The fold at the result buffer is `refOut` of the arguments' contents: each operation's result read at its own
    buffer is its function of its operands' contents, and the composed term is `refOut`'s, operation by operation. -/
theorem out_eq (V : Valuation τ sig (Elt F)) :
    after ops V (Proc.devRef .tc main_v47)
      = Cert.RefSpec.refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  after_results_simp
  rfl

/-! No operation writes an argument: the fold at an argument's buffer is what was there. -/
set_option maxHeartbeats 1000000

theorem arg0_eq (V : Valuation τ sig (Elt F)) :
    after ops V (Proc.devRef .tc main_arg0) = V (Proc.devRef .tc main_arg0) := by
  after_results_simp

theorem arg1_eq (V : Valuation τ sig (Elt F)) :
    after ops V (Proc.devRef .tc main_arg1) = V (Proc.devRef .tc main_arg1) := by
  after_results_simp

theorem arg2_eq (V : Valuation τ sig (Elt F)) :
    after ops V (Proc.devRef .tc main_arg2) = V (Proc.devRef .tc main_arg2) := by
  after_results_simp

theorem arg3_eq (V : Valuation τ sig (Elt F)) :
    after ops V (Proc.devRef .tc main_arg3) = V (Proc.devRef .tc main_arg3) := by
  after_results_simp

theorem arg4_eq (V : Valuation τ sig (Elt F)) :
    after ops V (Proc.devRef .tc main_arg4) = V (Proc.devRef .tc main_arg4) := by
  after_results_simp

theorem arg5_eq (V : Valuation τ sig (Elt F)) :
    after ops V (Proc.devRef .tc main_arg5) = V (Proc.devRef .tc main_arg5) := by
  after_results_simp

theorem arg6_eq (V : Valuation τ sig (Elt F)) :
    after ops V (Proc.devRef .tc main_arg6) = V (Proc.devRef .tc main_arg6) := by
  after_results_simp

theorem arg7_eq (V : Valuation τ sig (Elt F)) :
    after ops V (Proc.devRef .tc main_arg7) = V (Proc.devRef .tc main_arg7) := by
  after_results_simp

theorem arg8_eq (V : Valuation τ sig (Elt F)) :
    after ops V (Proc.devRef .tc main_arg8) = V (Proc.devRef .tc main_arg8) := by
  after_results_simp

/-- Every weakly fair execution of the reference terminates with its result at `refOut` of the launch contents of
    the arguments, the arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v47)
          = Cert.RefSpec.refOut (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
              (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v47).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _)⟩)
    (run_main m ρ)

end Cert.RefRun

end
-- ==== Proof.RefValue.lean ====
/-
  The reference's result at one entry, on the extended reals: entry (i, d) is the reference form of batch
  normalisation (Algebra.lean) of column d of the activations, with the count 40000 and the small positive ε the
  program's two words denote.
-/
import proofs.«142134_j58609123721516_1_alg».proof.Proof.RefSpec
import proofs.«142134_j58609123721516_1_alg».proof.Proof.Algebra
import Idealize.ShloMosaic.Lib.ValueIdx
import Idealize.ShloMosaic.Lib.IdealHost
import Idealize.ShloMosaic.Lib.KernelVsHost
import Idealize.ShloMosaic.Lib.Pipeline.Value
import Idealize.ShloMosaic.PureOps.Ideal.Laws

noncomputable section

open scoped BigOperators

namespace Cert.RefValue

open Idealize.ShloMosaic Idealize.ShloMosaic.ValueIdx
open Cert.ReferenceIdeal Cert.ReferenceIdeal.Gen

/-- The word `0x471C4000` is the real number 40000. -/
theorem ofBits_count : Ideal.ofBits .f32 0x471C4000#32 = ((40000 : ℝ) : EReal) := by
  simp [Ideal.ofBits, Ideal.ieee, -EReal.coe_mul]; norm_num

/-- The word `0x00000000` is zero. -/
theorem ofBits_zero : Ideal.ofBits .f32 0x00000000#32 = 0 := by
  simp [Ideal.ofBits, Ideal.ieee]

/-- The word `0x3F800000` is one. -/
theorem ofBits_one : Ideal.ofBits .f32 0x3F800000#32 = ((1 : ℝ) : EReal) := by
  simp [Ideal.ofBits, Ideal.ieee, -EReal.coe_mul]; norm_num

/-- The real number the word `0x3727C5AC` (the float nearest 1e-5) denotes. -/
def epsR : ℝ := 10995116 / 2 ^ 40

theorem epsR_pos : 0 < epsR := by
  unfold epsR; positivity

theorem ofBits_eps : Ideal.ofBits .f32 0x3727C5AC#32 = ((epsR : ℝ) : EReal) := by
  simp [Ideal.ofBits, Ideal.ieee, -EReal.coe_mul, epsR]; norm_num

/-- The column sums read at column d: the sum of the column's 40000 entries. -/
theorem colSum_apply (y : FVec Ideal S40000x128 .f32) (d : Fin 128) :
    Cert.RefSpec.colSum (F := Ideal) y (ix1 d) = ∑ j : Fin 40000, y (ix2 j d) := by
  have hR : S40000x128.Reduces [0] S128 := by decide
  unfold Cert.RefSpec.colSum
  rw [hostReduceAdd_apply, Ideal.hostReduceAdd_single reducesTo_S40000x128_S128_d0 hR, constant_apply,
    ofBits_zero, zero_add]
  show ∑ k : Fin 40000, y (hR.lift (ix1 d) k) = _
  refine Finset.sum_congr rfl fun k _ => congrArg y ?_
  funext a
  match a with
  | ⟨0, _⟩ => rfl
  | ⟨1, _⟩ => rfl

/-- A vector of 128 entries viewed as one row reads, at (0, d), its entry d. -/
theorem asRow_apply (v : FVec Ideal S128 .f32) (d : Fin 128) :
    broadcastInDim S1x128 ![1] bcast_S128_S1x128_1 v (ix2 (0 : Fin 1) d) = v (ix1 d) :=
  broadcastInDim_apply ![1] bcast_S128_S1x128_1 v (ix2 (0 : Fin 1) d) (ix1 d) (fun a => by
    match a with
    | ⟨0, _⟩ => rfl)

/-- A row of 128 laid under every row reads, at (i, d), the row's entry d. -/
theorem rowWide_apply (v : FVec Ideal S128 .f32) (i : Fin 40000) (d : Fin 128) :
    Cert.RefSpec.rowWide (F := Ideal) v (ix2 i d) = v (ix1 d) := by
  unfold Cert.RefSpec.rowWide
  rw [broadcastInDim_oneRow_apply, asRow_apply]

/-- The column means read at column d: the column's sum over 40000. -/
theorem colMean_apply (y : FVec Ideal S40000x128 .f32) (d : Fin 128) :
    Cert.RefSpec.colMean (F := Ideal) y (ix1 d)
      = Ideal.div (∑ j : Fin 40000, y (ix2 j d)) ((40000 : ℝ) : EReal) := by
  unfold Cert.RefSpec.colMean
  rw [hostDivf_apply, colSum_apply, broadcastInDim_scalar_apply, constant_apply, ofBits_count]

/-- The variance's count is 40000. -/
theorem varCount_apply (j : S_.Idx) : Cert.RefSpec.varCount (F := Ideal) j = ((40000 : ℝ) : EReal) := by
  unfold Cert.RefSpec.varCount
  rw [subf_apply, constant_apply, ofBits_count, sitofp_apply]
  show ((40000 : ℝ) : EReal) - (((0#32 : BitVec 32).toInt : ℝ) : EReal) = _
  simp

/-- The deviations read at (i, d): the entry less its column's mean. -/
theorem dev_apply (y : FVec Ideal S40000x128 .f32) (i : Fin 40000) (d : Fin 128) :
    Cert.RefSpec.dev (F := Ideal) y (ix2 i d)
      = y (ix2 i d) - Ideal.div (∑ j : Fin 40000, y (ix2 j d)) ((40000 : ℝ) : EReal) := by
  unfold Cert.RefSpec.dev
  rw [subf_apply, broadcastInDim_oneRow_apply, hostDivf_apply, broadcastInDim_scalar_apply, constant_apply, ofBits_count,
    asRow_apply, colSum_apply]

/-- The column variances read at column d: the mean of the squared deviations. -/
theorem colVar_apply (y : FVec Ideal S40000x128 .f32) (d : Fin 128) :
    Cert.RefSpec.colVar (F := Ideal) y (ix1 d)
      = Ideal.div (∑ j : Fin 40000,
          (y (ix2 j d) - Ideal.div (∑ k : Fin 40000, y (ix2 k d)) ((40000 : ℝ) : EReal))
            * (y (ix2 j d) - Ideal.div (∑ k : Fin 40000, y (ix2 k d)) ((40000 : ℝ) : EReal)))
          ((40000 : ℝ) : EReal) := by
  unfold Cert.RefSpec.colVar
  rw [select_apply, broadcastInDim_scalar_apply, cmpf_apply, varCount_apply, constant_apply, ofBits_zero,
    Ideal.cmpf_def]
  have hc : Ideal.cmp .ogt ((40000 : ℝ) : EReal) 0 = 1#1 := by
    unfold Ideal.cmp
    have : (0 : EReal) < ((40000 : ℝ) : EReal) := by exact_mod_cast (by norm_num : (0 : ℝ) < 40000)
    simp [this]
  rw [hc, select_one, hostDivf_apply, colSum_apply, broadcastInDim_scalar_apply, varCount_apply]
  refine congrArg (fun s => Ideal.div s ((40000 : ℝ) : EReal)) (Finset.sum_congr rfl fun j _ => ?_)
  rw [mulf_apply, dev_apply]

/-- Entry (i, d) of batch normalisation as the reference computes it, over any activations `y`. -/
theorem bnOut_apply (h y : FVec Ideal S40000x128 .f32) (γ β : FVec Ideal S128 .f32) (i : Fin 40000) (d : Fin 128) :
    Cert.RefSpec.bnOut (F := Ideal) h y γ β (ix2 i d)
      = Cert.BN.refForm ((40000 : ℝ) : EReal) ((epsR : ℝ) : EReal) (fun j : Fin 40000 => y (ix2 j d))
          (h (ix2 i d)) (γ (ix1 d)) (β (ix1 d)) i := by
  unfold Cert.RefSpec.bnOut Cert.BN.refForm
  rw [addf_apply, addf_apply, mulf_apply, mulf_apply, subf_apply, rowWide_apply, rowWide_apply, rowWide_apply,
    rowWide_apply, colMean_apply]
  show _ + ((_ * Ideal.rsqrt (Cert.RefSpec.colVar (F := Ideal) y (ix1 d)
      + broadcastInDim S128 ![] bcast_S_S128 (constant (F := Ideal) S_ .f32 0x3727C5AC#32) (ix1 d))) * _ + _) = _
  rw [colVar_apply, broadcastInDim_scalar_apply, constant_apply, ofBits_eps]

end Cert.RefValue

end
-- ==== Proof.FinitePre.lean ====
/-
  The precondition, read: every float argument's every entry is a real number. The printed predicate says, array
  by array, that all entries have absolute value below the word of +∞.
-/
import proofs.«142134_j58609123721516_1_alg».proof.Pre_finite_inputs
import proofs.«142134_j58609123721516_1_alg».proof.Proof.Gen.Pre_finite_inputs
import proofs.«142134_j58609123721516_1_alg».proof.Proof.Algebra
import Idealize.ShloMosaic.Lib.ReduceAll
import Idealize.ShloMosaic.Lib.IdealHost
import Idealize.ShloMosaic.Lib.ValueIdx

noncomputable section

namespace Cert.FinitePre

open Idealize.ShloMosaic Idealize.ShloMosaic.ValueIdx Cert.Pre_finite_inputs Cert.Pre_finite_inputs.Gen Cert.BN

/-- The rank-0 shape has one index. -/
local instance subsingleton_scalarIdx : Subsingleton S_.Idx := ⟨fun a b => funext fun d => d.elim0⟩

/-- The word `0x7F800000` denotes `+∞`. -/
theorem top_word : Ideal.ofBits .f32 0x7F800000#32 = (⊤ : EReal) := by simp [Ideal.ofBits, Ideal.ieee]

/-- An extended real whose absolute value `max a (−a)` is below `+∞` is a real number: at `⊥` and at `⊤` the
    absolute value is `⊤`. -/
theorem real_of_abs_lt_top (a : EReal) (h : Ideal.cmp .olt (max a (-a)) ⊤ = 1#1) : ∃ r : ℝ, a = (r : EReal) := by
  induction a using EReal.rec with
  | bot => simp [Ideal.cmp] at h
  | top => simp [Ideal.cmp] at h
  | coe r => exact ⟨r, rfl⟩

/-- One conjunct of the predicate, at any shape: if "all entries of `|x|` are below `+∞`" holds, every entry of `x`
    is a real number. -/
theorem isReal_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ix0 = 1#1) : IsReal x := by
  intro j
  have h1 := Host.reduce_andi_all _ _ hr hu ix0 e j
  rw [cmpf_apply, broadcastInDim_scalar_apply, constant_apply, top_word] at h1
  exact real_of_abs_lt_top (x j) h1

/-- If the printed predicate holds of the nine arguments, each of the seven float arrays has only real entries. -/
theorem reals_of_pre (h : FVec Ideal S40000x128 .f32) (snorm : FVec Ideal S40000x1 .f32)
    (Ws Wn : FVec Ideal S128x128 .f32) (b γ β : FVec Ideal S128 .f32) (src dst : IVec S640000 32)
    (hpre : fn (F := Ideal) h snorm Ws Wn b γ β src dst = fun _ => 1#1) :
    IsReal h ∧ IsReal snorm ∧ IsReal Ws ∧ IsReal Wn ∧ IsReal b ∧ IsReal γ ∧ IsReal β := by
  have e := congrFun hpre ix0
  dsimp only [fn, fn_part1] at e
  -- the predicate is a left-nested conjunction of the seven "all entries finite" bits
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  exact ⟨isReal_of_all h _ _ _ e1, isReal_of_all snorm _ _ _ e2, isReal_of_all Ws _ _ _ e3,
    isReal_of_all Wn _ _ _ e4, isReal_of_all b _ _ _ e5, isReal_of_all γ _ _ _ e6, isReal_of_all β _ _ _ e7⟩

end Cert.FinitePre

end
-- ==== Proof.FiniteAct.lean ====
/-
  The activations are real numbers when the arguments are. A neighbour mean is a finite sum of real entries of `h`
  divided by a real number that is at least one; a dense layer's entry is a finite sum of products of real numbers,
  plus a real bias, clipped at zero, times a real factor.
-/
import proofs.«142134_j58609123721516_1_alg».proof.Proof.RefSpec
import proofs.«142134_j58609123721516_1_alg».proof.Proof.Algebra
import Idealize.ShloMosaic.Lib.ValueIdx
import Idealize.ShloMosaic.PureOps.Ideal.Laws

noncomputable section

open scoped BigOperators

namespace Cert.FiniteAct

open Idealize.ShloMosaic Idealize.ShloMosaic.ValueIdx Cert.ReferenceIdeal Cert.ReferenceIdeal.Gen Cert.BN

/-- A finite sum of real numbers, read among the extended reals, is a real number. -/
theorem isReal_sum {ι : Type} (S : Finset ι) (f : ι → EReal) (hf : ∀ i ∈ S, ∃ r : ℝ, f i = (r : EReal)) :
    ∃ r : ℝ, ∑ i ∈ S, f i = (r : EReal) := by
  classical
  induction S using Finset.induction_on with
  | empty => exact ⟨0, by rw [Finset.sum_empty, EReal.coe_zero]⟩
  | insert a S ha ih =>
    obtain ⟨r, hr⟩ := hf a (Finset.mem_insert_self _ _)
    obtain ⟨q, hq⟩ := ih (fun i hi => hf i (Finset.mem_insert_of_mem hi))
    exact ⟨r + q, by rw [Finset.sum_insert ha, hr, hq, EReal.coe_add]⟩

/-- A broadcast only re-indexes: what holds of every entry of the operand holds of every entry of the result. -/
theorem bcast_all {s t : Shape} (P : EReal → Prop) (dims : Fin s.rank → Fin t.rank) (h : s.BroadcastsInDim t dims)
    (x : s.Idx → EReal) (hx : ∀ j, P (x j)) : ∀ j, P (broadcastInDim t dims h x j) :=
  fun j => hx _

/-- A broadcast of a real array is real. -/
theorem isReal_bcast {s t : Shape} (dims : Fin s.rank → Fin t.rank) (h : s.BroadcastsInDim t dims)
    (x : s.Idx → EReal) (hx : IsReal x) : IsReal (broadcastInDim t dims h x) :=
  fun j => hx _

/-- The zero word is the real number zero. -/
theorem ofBits_zero : Ideal.ofBits .f32 0x00000000#32 = ((0 : ℝ) : EReal) := by
  simp [Ideal.ofBits, Ideal.ieee]

/-- The word `0x3F800000` is the real number one. -/
theorem ofBits_one : Ideal.ofBits .f32 0x3F800000#32 = ((1 : ℝ) : EReal) := by
  simp [Ideal.ofBits, Ideal.ieee, -EReal.coe_mul]
  norm_num

/-- The constant array of the zero word is real. -/
theorem isReal_zero (s : Shape) : IsReal (constant (F := Ideal) s .f32 0x00000000#32) :=
  fun _ => ⟨0, ofBits_zero⟩

/-- The constant array of the word one is real. -/
theorem isReal_one (s : Shape) : IsReal (constant (F := Ideal) s .f32 0x3F800000#32) :=
  fun _ => ⟨1, ofBits_one⟩

/-- The sum of two real arrays is real. -/
theorem isReal_addf {s : Shape} (x y : FVec Ideal s .f32) (hx : IsReal x) (hy : IsReal y) : IsReal (addf x y) := by
  intro j
  obtain ⟨a, ha⟩ := hx j
  obtain ⟨b, hb⟩ := hy j
  refine ⟨a + b, ?_⟩
  show x j + y j = _
  rw [ha, hb, EReal.coe_add]

/-- The product of two real arrays is real. -/
theorem isReal_mulf {s : Shape} (x y : FVec Ideal s .f32) (hx : IsReal x) (hy : IsReal y) : IsReal (mulf x y) := by
  intro j
  obtain ⟨a, ha⟩ := hx j
  obtain ⟨b, hb⟩ := hy j
  refine ⟨a * b, ?_⟩
  show x j * y j = _
  rw [ha, hb, EReal.coe_mul]

/-- The greater of two real numbers is the same number among the extended reals. -/
theorem coe_max' (a b : ℝ) : max (a : EReal) (b : EReal) = ((max a b : ℝ) : EReal) :=
  (EReal.coe_strictMono.monotone.map_max).symm

/-- The entrywise maximum of two real arrays is real. -/
theorem isReal_maximumf {s : Shape} (x y : FVec Ideal s .f32) (hx : IsReal x) (hy : IsReal y) :
    IsReal (maximumf x y) := by
  intro j
  obtain ⟨a, ha⟩ := hx j
  obtain ⟨b, hb⟩ := hy j
  refine ⟨max a b, ?_⟩
  show max (x j) (y j) = _
  rw [ha, hb, coe_max']

/-- A gather only re-indexes: a gather of a real array is real. -/
theorem isReal_gather {s si t : Shape} {w : Nat} (d : GatherDims s si t) (x : s.Idx → EReal) (idx : IVec si w)
    (hx : IsReal x) : IsReal (Host.gather d x idx) :=
  fun j => hx _

/-- An accumulating scatter of real updates into a real operand is real: every entry is an operand entry plus a
    finite sum of update entries. -/
theorem isReal_scatterAdd {s si su : Shape} {w : Nat} (d : ScatterDims s si su) (x : FVec Ideal s .f32)
    (idx : IVec si w) (upd : FVec Ideal su .f32) (hx : IsReal x) (hu : IsReal upd) :
    IsReal (Host.scatterAdd d x idx upd) := by
  intro i
  obtain ⟨a, ha⟩ := hx i
  obtain ⟨b, hb⟩ := isReal_sum (Finset.univ.filter (fun j => d.resultIdx? j idx = some i)) upd (fun j _ => hu j)
  refine ⟨a + b, ?_⟩
  show x i + ∑ j ∈ Finset.univ.filter (fun j => d.resultIdx? j idx = some i), upd j = _
  rw [ha, hb, EReal.coe_add]

/-- A real array divided entrywise by an array of nonzero real numbers is real. -/
theorem isReal_divf {s : Shape} (x y : FVec Ideal s .f32) (hx : IsReal x)
    (hy : ∀ j, ∃ r : ℝ, r ≠ 0 ∧ y j = (r : EReal)) : IsReal (Host.divf x y) := by
  intro j
  obtain ⟨a, ha⟩ := hx j
  obtain ⟨r, hr0, hr⟩ := hy j
  refine ⟨a * (1 / r), ?_⟩
  show Ideal.div (x j) (y j) = _
  rw [ha, hr, Ideal.div_coe hr0, EReal.coe_mul]

/-- A contraction of two real arrays is real: every entry is a finite sum of products of entries. -/
theorem isReal_dot {sl sr so : Shape} (d : DotDims sl sr so) (prec : Option ContractPrecision)
    (lhs : FVec Ideal sl .f32) (rhs : FVec Ideal sr .f32) (hl : IsReal lhs) (hr : IsReal rhs) :
    IsReal (Host.dotGeneral d prec lhs rhs) := by
  intro j
  obtain ⟨b, hb⟩ := isReal_sum Finset.univ (fun k : d.contr.Idx => lhs (d.lhsIdx j k) * rhs (d.rhsIdx j k))
    (fun k _ => by
      obtain ⟨p, hp⟩ := hl (d.lhsIdx j k)
      obtain ⟨q, hq⟩ := hr (d.rhsIdx j k)
      exact ⟨p * q, by rw [hp, hq, EReal.coe_mul]⟩)
  refine ⟨b, ?_⟩
  show (0 : EReal) + ∑ k : d.contr.Idx, lhs (d.lhsIdx j k) * rhs (d.rhsIdx j k) = _
  rw [hb, zero_add]

/-- The in-degrees are real: sums of ones onto zero. -/
theorem deg_real (dst : IVec S640000 32) : IsReal (Cert.RefSpec.deg (F := Ideal) dst) :=
  isReal_scatterAdd _ _ _ _ (isReal_bcast _ _ _ (isReal_zero _)) (isReal_bcast _ _ _ (isReal_one _))

/-- The in-degree, at least one, across the columns: every entry is a nonzero real number. -/
theorem degWide_ne (dst : IVec S640000 32) :
    ∀ j, ∃ r : ℝ, r ≠ 0 ∧ Cert.RefSpec.degWide (F := Ideal) dst j = (r : EReal) := by
  refine bcast_all (fun e => ∃ r : ℝ, r ≠ 0 ∧ e = (r : EReal)) _ _ _ ?_
  refine bcast_all (fun e => ∃ r : ℝ, r ≠ 0 ∧ e = (r : EReal)) _ _ _ ?_
  intro j
  obtain ⟨a, ha⟩ := deg_real dst j
  refine ⟨max a 1, ?_, ?_⟩
  · have : (1 : ℝ) ≤ max a 1 := le_max_right _ _
    intro h0
    rw [h0] at this
    exact absurd this (by norm_num)
  · show max (Cert.RefSpec.deg (F := Ideal) dst j) (Ideal.ofBits .f32 0x3F800000#32) = _
    rw [ha, ofBits_one, coe_max']

/-- The neighbour means of a real array are real. -/
theorem hneigh_real (h : FVec Ideal S40000x128 .f32) (src dst : IVec S640000 32) (hh : IsReal h) :
    IsReal (Cert.RefSpec.hneigh (F := Ideal) h src dst) := by
  refine isReal_divf _ _ ?_ (degWide_ne dst)
  exact isReal_scatterAdd _ _ _ _ (isReal_bcast _ _ _ (isReal_zero _)) (isReal_gather _ _ _ hh)

/-- The dense layer of real arrays is real. -/
theorem actOf_real (h hn : FVec Ideal S40000x128 .f32) (snorm : FVec Ideal S40000x1 .f32)
    (Ws Wn : FVec Ideal S128x128 .f32) (b : FVec Ideal S128 .f32)
    (hh : IsReal h) (hhn : IsReal hn) (hs : IsReal snorm) (hWs : IsReal Ws) (hWn : IsReal Wn) (hb : IsReal b) :
    IsReal (Cert.RefSpec.actOf (F := Ideal) h hn snorm Ws Wn b) := by
  refine isReal_mulf _ _ (isReal_maximumf _ _ (isReal_addf _ _ (isReal_addf _ _ ?_ ?_) ?_) ?_) ?_
  · exact isReal_dot _ _ _ _ hh hWs
  · exact isReal_dot _ _ _ _ hhn hWn
  · exact isReal_bcast _ _ _ (isReal_bcast _ _ _ hb)
  · exact isReal_bcast _ _ _ (isReal_zero _)
  · exact isReal_bcast _ _ _ hs

/-- So the activations are real. -/
theorem act_real (h : FVec Ideal S40000x128 .f32) (snorm : FVec Ideal S40000x1 .f32)
    (Ws Wn : FVec Ideal S128x128 .f32) (b : FVec Ideal S128 .f32) (src dst : IVec S640000 32)
    (hh : IsReal h) (hs : IsReal snorm) (hWs : IsReal Ws) (hWn : IsReal Wn) (hb : IsReal b) :
    IsReal (Cert.RefSpec.act (F := Ideal) h snorm Ws Wn b src dst) :=
  actOf_real h _ snorm Ws Wn b hh (hneigh_real h src dst hh) hs hWs hWn hb

end Cert.FiniteAct

end
-- ==== Proof.KHost.lean ====
/-
  The host operations around the two kernel regions, read as values.

  Before the first region: the neighbour means, the same term of the arguments as the reference's (`RefSpec.hneigh`);
  the arguments themselves are not written. Between the regions: from the two rows of column totals `s1` (of the
  activations) and `s2` (of their squares), the column mean `s1 / 40000`, the inverse deviation
  `rsqrt (s2 / 40000 − mean² + ε)`, the scale row `γ · rsq` and the shift row `β − mean · γ · rsq`.
-/
import proofs.«142134_j58609123721516_1_alg».proof.Proof.Gen.KernelIdeal.Frame
import proofs.«142134_j58609123721516_1_alg».proof.Proof.RefSpec
import Idealize.ShloMosaic.Lib.StableHlo.Run

set_option maxRecDepth 16384

noncomputable section

namespace Cert.KernelIdeal.KHost

open Idealize.ShloMosaic Idealize.ShloMosaic.TcCoe Idealize.SL.Sem Idealize.ShloMosaic.StableHlo
open Cert.KernelIdeal Cert.KernelIdeal.Gen

variable {F : FTy → Type} [FloatOps F]

/-- A row of totals over the number of nodes. -/
def kMean (s : FVec F S1x128 .f32) : FVec F S128 .f32 :=
  Host.divf (shapeCast S128 s shapeCasts_S1x128_S128) (broadcastInDim S128 ![] bcast_S_S128 (constant S_ .f32 0x471C4000#32))

/-- The inverse deviation per column, from the totals and the totals of squares. -/
def kRsq (s1 s2 : FVec F S1x128 .f32) : FVec F S128 .f32 :=
  Host.rsqrt (addf (subf (kMean s2) (mulf (kMean s1) (kMean s1)))
    (broadcastInDim S128 ![] bcast_S_S128 (constant S_ .f32 0x3727C5AC#32)))

/-- The scale row. -/
def scaleRow (s1 s2 : FVec F S1x128 .f32) (γ : FVec F S128 .f32) : FVec F S1x128 .f32 :=
  shapeCast S1x128 (mulf γ (kRsq s1 s2)) shapeCasts_S128_S1x128

/-- The shift row. -/
def shiftRow (s1 s2 : FVec F S1x128 .f32) (γ β : FVec F S128 .f32) : FVec F S1x128 .f32 :=
  shapeCast S1x128 (subf β (mulf (mulf (kMean s1) γ) (kRsq s1 s2))) shapeCasts_S128_S1x128

section Stretch1
variable (W : Valuation τ sig (Elt F))

theorem after1_scale : after hostOps1 W (Proc.devRef .tc main_v32)
    = scaleRow (W (Proc.devRef .tc main_v19_1)) (W (Proc.devRef .tc main_v19_2)) (W (Proc.devRef .tc main_arg5)) := by
  after_results; rfl

theorem after1_shift : after hostOps1 W (Proc.devRef .tc main_v36)
    = shiftRow (W (Proc.devRef .tc main_v19_1)) (W (Proc.devRef .tc main_v19_2)) (W (Proc.devRef .tc main_arg5)) (W (Proc.devRef .tc main_arg6)) := by
  after_results_simp; rfl

theorem after1_pre : after hostOps1 W (Proc.devRef .tc main_v19_0) = W (Proc.devRef .tc main_v19_0) := by
  after_results

theorem after1_arg0 : after hostOps1 W (Proc.devRef .tc main_arg0) = W (Proc.devRef .tc main_arg0) := by
  after_results

end Stretch1

section Stretch0
variable (W : Valuation τ sig (Elt F))

theorem after0_hneigh : after hostOps0 W (Proc.devRef .tc main_v18)
    = Cert.RefSpec.hneigh (W (Proc.devRef .tc main_arg0)) (W (Proc.devRef .tc main_arg7)) (W (Proc.devRef .tc main_arg8)) := by
  after_results_simp; rfl

theorem after0_arg0 : after hostOps0 W (Proc.devRef .tc main_arg0) = W (Proc.devRef .tc main_arg0) := by after_results_simp
theorem after0_arg1 : after hostOps0 W (Proc.devRef .tc main_arg1) = W (Proc.devRef .tc main_arg1) := by after_results_simp
theorem after0_arg2 : after hostOps0 W (Proc.devRef .tc main_arg2) = W (Proc.devRef .tc main_arg2) := by after_results_simp
theorem after0_arg3 : after hostOps0 W (Proc.devRef .tc main_arg3) = W (Proc.devRef .tc main_arg3) := by after_results_simp
theorem after0_arg4 : after hostOps0 W (Proc.devRef .tc main_arg4) = W (Proc.devRef .tc main_arg4) := by after_results_simp
theorem after0_arg5 : after hostOps0 W (Proc.devRef .tc main_arg5) = W (Proc.devRef .tc main_arg5) := by after_results_simp
theorem after0_arg6 : after hostOps0 W (Proc.devRef .tc main_arg6) = W (Proc.devRef .tc main_arg6) := by after_results_simp

end Stretch0

end Cert.KernelIdeal.KHost

end
-- ==== Proof.KPieces.lean ====
/-
  What one run of the first kernel's body leaves in its three output blocks, as values of the input blocks.

  The body computes the activation block `k0_pay4` of its six input blocks and stores it whole in the first output.
  The other two outputs are running column totals. At the first grid point the body first stores a zero row, reads
  it back, and adds the block's column sums (of the activations, and of their squares) to it; at every later point
  it adds them to what the point before left there.
-/
import proofs.«142134_j58609123721516_1_alg».proof.Proof.Gen.KernelIdeal.Frame
import Idealize.ShloMosaic.Lib.Pipeline.Value
import Idealize.ShloMosaic.Lib.Tactic

set_option maxRecDepth 16384

noncomputable section

namespace Cert.KPieces

open Idealize.ShloMosaic Idealize.ShloMosaic.TcCoe Idealize.SL.Sem
open Cert.KernelIdeal Cert.KernelIdeal.Gen

variable {F : FTy → Type} [FloatOps F]

/-- The zero offsets every load and store of the body uses, rank 2. -/
private theorem hz2 : (![0, 0] : Fin 2 → Nat) = fun _ => 0 := funext fun a => by fin_cases a <;> rfl

/-- The zero offset of the rank-1 load. -/
private theorem hz1 : (![0] : Fin 1 → Nat) = fun _ => 0 := funext fun a => by fin_cases a; rfl

/-- First point, activations: the block's activations. -/
theorem out_A_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond0_0 i) (x0 : Vec F S5000x128 .f32) (x1 : Vec F S5000x128 .f32) (x2 : Vec F S5000x1 .f32) (x3 : Vec F S128x128 .f32) (x4 : Vec F S128x128 .f32) (x5 : Vec F S128 .f32) :
    out0_A_6 c i arg1 harg1 arg2 harg2 arg3 harg3 arg4 harg4 arg5 harg5 arg6 harg6 arg7 harg7 arg8 harg8 arg9 harg9 hc0 x0 x1 x2 x3 x4 x5 = k0_pay4 x0 x1 x3 x4 x5 x2 := by
  unfold out0_A_6
  rw [View.read_writes_eq_canon _ _ _ (cover0_A_6 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_unit_zero hz2]
  simp only [View.readAt_eq_ld, harg1.read_unread, harg2.read_unread, harg3.read_unread, harg4.read_unread, harg5.read_unread, harg6.read_unread, View.ld_unit_zero (S := S5000x128) hz2, View.ld_unit_zero (S := S128x128) hz2, View.ld_unit_zero (S := S5000x1) hz2, View.ld_unit_zero (S := S128) hz1]

/-- First point, column totals: the zero row plus the block's column sums. -/
theorem out_A_7 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond0_0 i) (x0 : Vec F S5000x128 .f32) (x1 : Vec F S5000x128 .f32) (x2 : Vec F S5000x1 .f32) (x3 : Vec F S128x128 .f32) (x4 : Vec F S128x128 .f32) (x5 : Vec F S128 .f32) :
    out0_A_7 c i arg1 harg1 arg2 harg2 arg3 harg3 arg4 harg4 arg5 harg5 arg6 harg6 arg7 harg7 arg8 harg8 arg9 harg9 hc0 x0 x1 x2 x3 x4 x5 = k0_pay5 x0 x1 x3 x4 x5 x2 (k0_pay2 (F := F)) := by
  unfold out0_A_7
  rw [View.read_writes_eq_canon _ _ _ (cover0_A_7 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_cons_unit_zero (S := S1x128) hz2, View.readCov_unit_zero (S := S1x128) _ hz2]
  simp only [View.readAt_eq_ld, harg1.read_unread, harg2.read_unread, harg3.read_unread, harg4.read_unread, harg5.read_unread, harg6.read_unread, View.ld_unit_zero (S := S5000x128) hz2, View.ld_unit_zero (S := S128x128) hz2, View.ld_unit_zero (S := S5000x1) hz2, View.ld_unit_zero (S := S128) hz1]

/-- First point, totals of squares: the zero row plus the block's column sums of squares. -/
theorem out_A_8 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond0_0 i) (x0 : Vec F S5000x128 .f32) (x1 : Vec F S5000x128 .f32) (x2 : Vec F S5000x1 .f32) (x3 : Vec F S128x128 .f32) (x4 : Vec F S128x128 .f32) (x5 : Vec F S128 .f32) :
    out0_A_8 c i arg1 harg1 arg2 harg2 arg3 harg3 arg4 harg4 arg5 harg5 arg6 harg6 arg7 harg7 arg8 harg8 arg9 harg9 hc0 x0 x1 x2 x3 x4 x5 = k0_pay1 (k0_pay4 x0 x1 x3 x4 x5 x2) (k0_pay3 (F := F)) := by
  unfold out0_A_8
  rw [View.read_writes_eq_canon _ _ _ (cover0_A_8 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_cons_unit_zero (S := S1x128) hz2, View.readCov_unit_zero (S := S1x128) _ hz2]
  simp only [View.readAt_eq_ld, harg1.read_unread, harg2.read_unread, harg3.read_unread, harg4.read_unread, harg5.read_unread, harg6.read_unread, View.ld_unit_zero (S := S5000x128) hz2, View.ld_unit_zero (S := S128x128) hz2, View.ld_unit_zero (S := S5000x1) hz2, View.ld_unit_zero (S := S128) hz1]

/-- A later point, activations: the block's activations. -/
theorem out_B_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (x0 : Vec F S5000x128 .f32) (x1 : Vec F S5000x128 .f32) (x2 : Vec F S5000x1 .f32) (x3 : Vec F S128x128 .f32) (x4 : Vec F S128x128 .f32) (x5 : Vec F S128 .f32) (xo7 : Vec F S1x128 .f32) (xo8 : Vec F S1x128 .f32) :
    out0_B_6 c i arg1 harg1 arg2 harg2 arg3 harg3 arg4 harg4 arg5 harg5 arg6 harg6 arg7 harg7 arg8 harg8 arg9 harg9 hc0 x0 x1 x2 x3 x4 x5 xo7 xo8 = k0_pay4 x0 x1 x3 x4 x5 x2 := by
  unfold out0_B_6
  rw [View.read_writes_eq_canon _ _ _ (cover0_B_6 c i arg1 harg1 arg2 harg2 arg3 harg3 arg4 harg4 arg5 harg5 arg6 harg6 arg7 harg7 arg8 harg8 arg9 harg9 hc0 x0 x1 x2 x3 x4 x5 xo7 xo8)]
  unfold kernelRun0_B
  dsimp only
  sl_unfold_words
  rw [View.canon_unit_zero hz2]
  simp only [View.readAt_eq_ld, harg1.read_unread, harg2.read_unread, harg3.read_unread, harg4.read_unread, harg5.read_unread, harg6.read_unread, View.ld_unit_zero (S := S5000x128) hz2, View.ld_unit_zero (S := S128x128) hz2, View.ld_unit_zero (S := S5000x1) hz2, View.ld_unit_zero (S := S128) hz1]

/-- A later point, column totals: the running totals plus the block's column sums. -/
theorem out_B_7 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (x0 : Vec F S5000x128 .f32) (x1 : Vec F S5000x128 .f32) (x2 : Vec F S5000x1 .f32) (x3 : Vec F S128x128 .f32) (x4 : Vec F S128x128 .f32) (x5 : Vec F S128 .f32) (xo7 : Vec F S1x128 .f32) (xo8 : Vec F S1x128 .f32) :
    out0_B_7 c i arg1 harg1 arg2 harg2 arg3 harg3 arg4 harg4 arg5 harg5 arg6 harg6 arg7 harg7 arg8 harg8 arg9 harg9 hc0 x0 x1 x2 x3 x4 x5 xo7 xo8 = k0_pay5 x0 x1 x3 x4 x5 x2 xo7 := by
  unfold out0_B_7
  rw [View.read_writes_eq_canon _ _ _ (cover0_B_7 c i arg1 harg1 arg2 harg2 arg3 harg3 arg4 harg4 arg5 harg5 arg6 harg6 arg7 harg7 arg8 harg8 arg9 harg9 hc0 x0 x1 x2 x3 x4 x5 xo7 xo8)]
  unfold kernelRun0_B
  dsimp only
  sl_unfold_words
  rw [View.canon_unit_zero hz2]
  simp only [View.readAt_eq_ld, harg1.read_unread, harg2.read_unread, harg3.read_unread, harg4.read_unread, harg5.read_unread, harg6.read_unread, View.ld_unit_zero (S := S5000x128) hz2, View.ld_unit_zero (S := S128x128) hz2, View.ld_unit_zero (S := S5000x1) hz2, View.ld_unit_zero (S := S128) hz1, harg8.read_unread, View.ld_unit_zero (S := S1x128) hz2]

/-- A later point, totals of squares: the running totals plus the block's column sums of squares. -/
theorem out_B_8 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (x0 : Vec F S5000x128 .f32) (x1 : Vec F S5000x128 .f32) (x2 : Vec F S5000x1 .f32) (x3 : Vec F S128x128 .f32) (x4 : Vec F S128x128 .f32) (x5 : Vec F S128 .f32) (xo7 : Vec F S1x128 .f32) (xo8 : Vec F S1x128 .f32) :
    out0_B_8 c i arg1 harg1 arg2 harg2 arg3 harg3 arg4 harg4 arg5 harg5 arg6 harg6 arg7 harg7 arg8 harg8 arg9 harg9 hc0 x0 x1 x2 x3 x4 x5 xo7 xo8 = k0_pay1 (k0_pay4 x0 x1 x3 x4 x5 x2) xo8 := by
  unfold out0_B_8
  rw [View.read_writes_eq_canon _ _ _ (cover0_B_8 c i arg1 harg1 arg2 harg2 arg3 harg3 arg4 harg4 arg5 harg5 arg6 harg6 arg7 harg7 arg8 harg8 arg9 harg9 hc0 x0 x1 x2 x3 x4 x5 xo7 xo8)]
  unfold kernelRun0_B
  dsimp only
  sl_unfold_words
  rw [View.canon_unit_zero hz2]
  simp only [View.readAt_eq_ld, harg1.read_unread, harg2.read_unread, harg3.read_unread, harg4.read_unread, harg5.read_unread, harg6.read_unread, View.ld_unit_zero (S := S5000x128) hz2, View.ld_unit_zero (S := S128x128) hz2, View.ld_unit_zero (S := S5000x1) hz2, View.ld_unit_zero (S := S128) hz1, harg9.read_unread, View.ld_unit_zero (S := S1x128) hz2]

end Cert.KPieces

end
-- ==== Proof.LibPlainDot.lean ====
import Idealize.ShloMosaic.PureOps.Ideal.Laws
import Idealize.ShloMosaic.Lib.ValueIdx

noncomputable section

open scoped BigOperators

/-! # A plain two-dimensional product read at an entry

For the dimension numbers "rows by contraction, contraction by columns" (`DotDims.plain M K N`), entry `(r, c)` of a
matrix product into a zero accumulator, and of a host `dot_general`, is `∑ k : Fin K, l (r, k) * r (k, c)` on the
extended reals. Stated for any record `d` equal to the plain one, so that a printed record is passed with `rfl`. -/

namespace Cert.PlainDot

open Idealize.ShloMosaic Idealize.ShloMosaic.ValueIdx

variable {M K N : ℕ}

/-- The contraction's sum over the record's own index type is the sum over `Fin K` with the operands read at
    `(r, k)` and `(k, c)`. -/
theorem sum_plain (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  subst hd
  rw [← Equiv.sum_comp (contrEquiv1 (DotDims.plain M K N) K rfl rfl).symm]
  refine Finset.sum_congr rfl fun k _ => ?_
  have hl : (DotDims.plain M K N).lhsIdx j ((contrEquiv1 (DotDims.plain M K N) K rfl rfl).symm k) = ix2 (j 0) k := by
    funext a
    match a with
    | ⟨0, _⟩ => exact Fin.ext rfl
    | ⟨1, _⟩ =>
      apply Fin.ext
      exact ((DotDims.plain M K N).lhsIdx_val_of_single (cl := 1) rfl j _).trans
        (contrEquiv1_symm_val (DotDims.plain M K N) K rfl rfl k)
  have hr : (DotDims.plain M K N).rhsIdx j ((contrEquiv1 (DotDims.plain M K N) K rfl rfl).symm k) = ix2 k (j 1) := by
    funext a
    match a with
    | ⟨0, _⟩ =>
      apply Fin.ext
      exact ((DotDims.plain M K N).rhsIdx_val_of_single (cr := 0) rfl j _).trans
        (contrEquiv1_symm_val (DotDims.plain M K N) K rfl rfl k)
    | ⟨1, _⟩ => exact Fin.ext rfl
  rw [hl, hr]
  rfl

/-- A matrix-unit product into the zero accumulator, at an entry. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (j : (⟨2, ![M, N]⟩ : Shape).Idx) :
    FloatOps.matmul d prec l r (constant ⟨2, ![M, N]⟩ .f32 0x00000000#32) j = ∑ k : Fin K, l (ix2 (j 0) k) * r (ix2 k (j 1)) := by
  rw [Ideal.matmul_constant_zero_apply]; exact sum_plain d hd l r j

/-- A host `dot_general`, at an entry. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) := by
  rw [Ideal.dotGeneral_apply]; exact sum_plain d hd l r j

end Cert.PlainDot

end
-- ==== Proof.LibRowBlock.lean ====
import Idealize.ShloMosaic.PureOps.Ideal.Laws
import Idealize.ShloMosaic.Lib.ValueIdx
import Idealize.ShloMosaic.Lib.Layout
import Idealize.ShloMosaic.Lib.ValueLayout
import Idealize.ShloMosaic.Lib.Pipeline.Value
import proofs.«142134_j58609123721516_1_alg».proof.Proof.LibPlainDot

noncomputable section

open scoped BigOperators

/-! # Row blocks of two-axis arrays

An array of `M = T · R` rows cut into `T` blocks of `R` rows (`Layout.block … 0 T t`: rows `t·R … t·R + R − 1`).
Every operation that works row by row commutes with taking a row block: the block of the result is the
operation applied to the blocks. Stated here for the operations of a dense layer: a product with a matrix
shared by all rows, a concatenation along the columns, a column slice, a bias row added to every row, a
constant, and the pointwise operations. With these, a computation on one block of rows is read as the
block of the same computation on the whole array. -/

namespace Cert.RowBlock

open Idealize.ShloMosaic Idealize.ShloMosaic.ValueIdx Idealize.ShloMosaic.Layout

variable {R M T : ℕ} {α : Type}

/-- Where entry `(r, q)` of block `t` lies in the whole array: row `t·R + r`, column `q`. -/
theorem idx_rows {N : ℕ} (hN : Tiles ⟨2, ![R, N]⟩ ⟨2, ![M, N]⟩ 0 T) (t : Fin T) (y : (⟨2, ![R, N]⟩ : Shape).Idx) :
    (hN.idx t y 0).val = t.val * R + (y 0).val ∧ (hN.idx t y 1).val = (y 1).val := ⟨rfl, rfl⟩

/-- The unit word is the real number one. -/
theorem ofBits_one : Ideal.ofBits .f32 0x3F800000#32 = 1 := by
  simp [Ideal.ofBits, Ideal.ieee, -EReal.coe_mul]; norm_num

/-! ## A product with a shared matrix -/

/-- Rows `t·R …` of `X · W` are (rows `t·R …` of `X`) `· W`: entry `(r, c)` of either is
    `∑ k, X (t·R + r, k) · W (k, c)`. The block's product is a matrix-unit product into the zero accumulator,
    the whole array's a host product; on the extended reals both are that sum. -/
theorem dot_rows {K N : ℕ} {φ₁ φ₂ : FTy}
    (d₁ : DotDims ⟨2, ![R, K]⟩ ⟨2, ![K, N]⟩ ⟨2, ![R, N]⟩) (hd₁ : d₁ = DotDims.plain R K N)
    (d₂ : DotDims ⟨2, ![M, K]⟩ ⟨2, ![K, N]⟩ ⟨2, ![M, N]⟩) (hd₂ : d₂ = DotDims.plain M K N)
    (hK : Tiles ⟨2, ![R, K]⟩ ⟨2, ![M, K]⟩ 0 T) (hN : Tiles ⟨2, ![R, N]⟩ ⟨2, ![M, N]⟩ 0 T)
    (p₁ p₂ : Option ContractPrecision) (t : Fin T)
    (X : FVec Ideal ⟨2, ![M, K]⟩ φ₁) (W : FVec Ideal ⟨2, ![K, N]⟩ φ₂) :
    matmul d₁ p₁ (block ⟨2, ![R, K]⟩ ⟨2, ![M, K]⟩ 0 T t X hK) W (constant ⟨2, ![R, N]⟩ .f32 0x00000000#32)
      = block ⟨2, ![R, N]⟩ ⟨2, ![M, N]⟩ 0 T t (Host.dotGeneral d₂ p₂ X W) hN := by
  funext y
  refine (Cert.PlainDot.matmul_zero_apply d₁ hd₁ p₁ _ W y).trans ?_
  refine Eq.trans ?_ (Cert.PlainDot.dotGeneral_apply d₂ hd₂ p₂ .single X W (hN.idx t y)).symm
  refine Finset.sum_congr rfl fun k _ => ?_
  have e1 : hK.idx t (ix2 (y 0) k) = ix2 (hN.idx t y 0) k := by
    funext a
    match a with
    | ⟨0, _⟩ => exact Fin.ext rfl
    | ⟨1, _⟩ => exact Fin.ext rfl
  have e2 : (ix2 k (y 1) : (⟨2, ![K, N]⟩ : Shape).Idx) = ix2 k (hN.idx t y 1) := by
    funext a
    match a with
    | ⟨0, _⟩ => exact Fin.ext rfl
    | ⟨1, _⟩ => exact Fin.ext rfl
  rw [block_apply, e1, e2]
  rfl

/-- The same with both operands first rounded to a narrower format, which on the extended reals changes nothing. -/
theorem dot_rows_trunc {K N : ℕ} {φ₁ φ₂ ψ₁ ψ₂ : FTy} (h₁ : ψ₁.bits < φ₁.bits) (h₂ : ψ₂.bits < φ₂.bits)
    (d₁ : DotDims ⟨2, ![R, K]⟩ ⟨2, ![K, N]⟩ ⟨2, ![R, N]⟩) (hd₁ : d₁ = DotDims.plain R K N)
    (d₂ : DotDims ⟨2, ![M, K]⟩ ⟨2, ![K, N]⟩ ⟨2, ![M, N]⟩) (hd₂ : d₂ = DotDims.plain M K N)
    (hK : Tiles ⟨2, ![R, K]⟩ ⟨2, ![M, K]⟩ 0 T) (hN : Tiles ⟨2, ![R, N]⟩ ⟨2, ![M, N]⟩ 0 T)
    (p₁ p₂ : Option ContractPrecision) (t : Fin T)
    (X : FVec Ideal ⟨2, ![M, K]⟩ φ₁) (W : FVec Ideal ⟨2, ![K, N]⟩ φ₂) :
    matmul d₁ p₁ (truncf ψ₁ (block ⟨2, ![R, K]⟩ ⟨2, ![M, K]⟩ 0 T t X hK) h₁) (truncf ψ₂ W h₂) (constant ⟨2, ![R, N]⟩ .f32 0x00000000#32)
      = block ⟨2, ![R, N]⟩ ⟨2, ![M, N]⟩ 0 T t (Host.dotGeneral d₂ p₂ X W) hN :=
  dot_rows (φ₁ := φ₁) (φ₂ := φ₂) d₁ hd₁ d₂ hd₂ hK hN p₁ p₂ t X W

/-! ## Pointwise operations -/

section Pointwise
variable {N : ℕ} {φ : FTy} (hN : Tiles ⟨2, ![R, N]⟩ ⟨2, ![M, N]⟩ 0 T) (t : Fin T)
  (X Y : FVec Ideal ⟨2, ![M, N]⟩ φ)

theorem addf_rows : addf (block ⟨2, ![R, N]⟩ ⟨2, ![M, N]⟩ 0 T t X hN) (block ⟨2, ![R, N]⟩ ⟨2, ![M, N]⟩ 0 T t Y hN)
    = block ⟨2, ![R, N]⟩ ⟨2, ![M, N]⟩ 0 T t (addf X Y) hN := rfl
theorem subf_rows : subf (block ⟨2, ![R, N]⟩ ⟨2, ![M, N]⟩ 0 T t X hN) (block ⟨2, ![R, N]⟩ ⟨2, ![M, N]⟩ 0 T t Y hN)
    = block ⟨2, ![R, N]⟩ ⟨2, ![M, N]⟩ 0 T t (subf X Y) hN := rfl
theorem mulf_rows : mulf (block ⟨2, ![R, N]⟩ ⟨2, ![M, N]⟩ 0 T t X hN) (block ⟨2, ![R, N]⟩ ⟨2, ![M, N]⟩ 0 T t Y hN)
    = block ⟨2, ![R, N]⟩ ⟨2, ![M, N]⟩ 0 T t (mulf X Y) hN := rfl
theorem maximumf_rows : maximumf (block ⟨2, ![R, N]⟩ ⟨2, ![M, N]⟩ 0 T t X hN) (block ⟨2, ![R, N]⟩ ⟨2, ![M, N]⟩ 0 T t Y hN)
    = block ⟨2, ![R, N]⟩ ⟨2, ![M, N]⟩ 0 T t (maximumf X Y) hN := rfl
/-- The kernel's hyperbolic tangent and the host's are one function on the extended reals. -/
theorem tanh_rows : tanh (block ⟨2, ![R, N]⟩ ⟨2, ![M, N]⟩ 0 T t X hN)
    = block ⟨2, ![R, N]⟩ ⟨2, ![M, N]⟩ 0 T t (Host.tanh X) hN := rfl
/-- The logistic function is `1 / (1 + e^(−x))`, which the host spells out with the unit word for `1`. -/
theorem logistic_rows (hb : (⟨0, ![]⟩ : Shape).BroadcastsInDim ⟨2, ![M, N]⟩ (![] : Fin 0 → Fin 2)) :
    logistic (block ⟨2, ![R, N]⟩ ⟨2, ![M, N]⟩ 0 T t (X : FVec Ideal ⟨2, ![M, N]⟩ .f32) hN)
    = block ⟨2, ![R, N]⟩ ⟨2, ![M, N]⟩ 0 T t
        (Host.divf (broadcastInDim ⟨2, ![M, N]⟩ ![] hb (constant (F := Ideal) ⟨0, ![]⟩ .f32 0x3F800000#32))
          (addf (broadcastInDim ⟨2, ![M, N]⟩ ![] hb (constant (F := Ideal) ⟨0, ![]⟩ .f32 0x3F800000#32)) (Host.exp (Host.negf X)))) hN := by
  funext y
  show FloatOps.logistic (X (hN.idx t y))
    = FloatOps.hostDivf (Ideal.ofBits .f32 0x3F800000#32)
        (FloatOps.addf (Ideal.ofBits .f32 0x3F800000#32) (FloatOps.hostUnary .exp (FloatOps.hostNegf (X (hN.idx t y)))))
  rw [ofBits_one]
  rfl
end Pointwise

/-! ## Constants, bias rows, column slices, concatenation along the columns -/

/-- A constant array's row block is the constant block. -/
theorem splat_rows {N : ℕ} (hN : Tiles ⟨2, ![R, N]⟩ ⟨2, ![M, N]⟩ 0 T) (t : Fin T)
    (hb : (⟨0, ![]⟩ : Shape).BroadcastsInDim ⟨2, ![M, N]⟩ (![] : Fin 0 → Fin 2)) (w : BitVec 32) :
    broadcast ⟨2, ![R, N]⟩ (Scalar.ofBits (F := Ideal) .f32 w)
      = block ⟨2, ![R, N]⟩ ⟨2, ![M, N]⟩ 0 T t (broadcastInDim ⟨2, ![M, N]⟩ ![] hb (constant (F := Ideal) ⟨0, ![]⟩ .f32 w)) hN := by
  funext y
  rfl

/-- A bias row laid under every row: the block sees the same row. -/
theorem bias_rows {N : ℕ} (hN : Tiles ⟨2, ![R, N]⟩ ⟨2, ![M, N]⟩ 0 T) (t : Fin T)
    (hc : (⟨1, ![N]⟩ : Shape).ShapeCasts ⟨2, ![1, N]⟩) (hbt : (⟨2, ![1, N]⟩ : Shape).Broadcasts ⟨2, ![R, N]⟩)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (b : (⟨1, ![N]⟩ : Shape).Idx → α) :
    broadcastTo ⟨2, ![R, N]⟩ (shapeCast ⟨2, ![1, N]⟩ b hc) hbt
      = block ⟨2, ![R, N]⟩ ⟨2, ![M, N]⟩ 0 T t (broadcastInDim ⟨2, ![M, N]⟩ ![0, 1] h2 (broadcastInDim ⟨2, ![1, N]⟩ ![1] h1 b)) hN := by
  funext y
  obtain ⟨p, q, rfl⟩ : ∃ (p : Fin R) (q : Fin N), y = ix2 p q := ⟨y 0, y 1, eq_ix2 y⟩
  rw [broadcastTo_1b_ab_apply, shapeCast_a_1a_apply, block_apply]
  refine Eq.symm ?_
  refine (broadcastInDim_apply ![0, 1] h2 _ (hN.idx t (ix2 p q)) (ix2 (0 : Fin 1) q) fun a => ?_).trans ?_
  · match a with
    | ⟨0, _⟩ => rfl
    | ⟨1, _⟩ =>
      show q.val = if N = 1 then 0 else q.val
      split
      · have := q.isLt; omega
      · rfl
  · refine broadcastInDim_apply ![1] h1 b (ix2 (0 : Fin 1) q) (ix1 q) fun a => ?_
    match a with
    | ⟨0, _⟩ =>
      show q.val = if N = 1 then 0 else q.val
      split
      · have := q.isLt; omega
      · rfl

/-- Columns `o … o + N' − 1`: of the block, or the block of those columns. -/
theorem slice_rows {N N' : ℕ} (o : ℕ) (hN : Tiles ⟨2, ![R, N]⟩ ⟨2, ![M, N]⟩ 0 T) (hN' : Tiles ⟨2, ![R, N']⟩ ⟨2, ![M, N']⟩ 0 T) (t : Fin T)
    (hs : (⟨2, ![R, N]⟩ : Shape).Slices ![0, o] ⟨2, ![R, N']⟩) (hs' : (⟨2, ![M, N]⟩ : Shape).Slices ![0, o] ⟨2, ![M, N']⟩)
    (X : (⟨2, ![M, N]⟩ : Shape).Idx → α) :
    extractStridedSlice ⟨2, ![R, N']⟩ ![0, o] (block ⟨2, ![R, N]⟩ ⟨2, ![M, N]⟩ 0 T t X hN) hs
      = block ⟨2, ![R, N']⟩ ⟨2, ![M, N']⟩ 0 T t (extractStridedSlice ⟨2, ![M, N']⟩ ![0, o] X hs') hN' := by
  funext y
  show X _ = X _
  congr 1
  funext a
  match a with
  | ⟨0, _⟩ =>
    apply Fin.ext
    show t.val * R + (0 + (y 0).val) = 0 + (t.val * R + (y 0).val)
    omega
  | ⟨1, _⟩ => exact Fin.ext rfl

/-- Two arrays side by side: the block of the pair is the pair of the blocks. -/
theorem concat2_rows {N₁ N₂ N : ℕ}
    (h₁ : Tiles ⟨2, ![R, N₁]⟩ ⟨2, ![M, N₁]⟩ 0 T) (h₂ : Tiles ⟨2, ![R, N₂]⟩ ⟨2, ![M, N₂]⟩ 0 T) (hN : Tiles ⟨2, ![R, N]⟩ ⟨2, ![M, N]⟩ 0 T)
    (t : Fin T)
    (hc : Shape.Concatenates [(⟨2, ![R, N₁]⟩ : Shape), ⟨2, ![R, N₂]⟩] ⟨2, ![R, N]⟩ 1)
    (hc' : Shape.Concatenates [(⟨2, ![M, N₁]⟩ : Shape), ⟨2, ![M, N₂]⟩] ⟨2, ![M, N]⟩ 1)
    (A : (⟨2, ![M, N₁]⟩ : Shape).Idx → α) (B : (⟨2, ![M, N₂]⟩ : Shape).Idx → α) :
    concatenate ⟨2, ![R, N]⟩ 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩] hc
      = block ⟨2, ![R, N]⟩ ⟨2, ![M, N]⟩ 0 T t (concatenate ⟨2, ![M, N]⟩ 1 [⟨⟨2, ![M, N₁]⟩, A⟩, ⟨⟨2, ![M, N₂]⟩, B⟩] hc') hN := by
  funext y
  obtain ⟨p, q, rfl⟩ : ∃ (p : Fin R) (q : Fin N), y = ix2 p q := ⟨y 0, y 1, eq_ix2 y⟩
  have hsum : N₁ + (N₂ + (0)) = N := hc.2.2
  have hq := q.isLt
  rw [block_apply]
  by_cases hc0 : q.val < N₁
  · have c0 : q.val < N₁ := hc0
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩] hc (ix2 p q) 0 (by show 0 < 2; omega) ⟨2, ![R, N₁]⟩ _ rfl rfl (0) rfl (ix2 p ⟨q.val, c0⟩) (fun b hb => ?_) (Nat.zero_add _)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩] hc' (hN.idx t (ix2 p q)) 0 (by show 0 < 2; omega) ⟨2, ![M, N₁]⟩ A rfl rfl (0) rfl (h₁.idx t (ix2 p ⟨q.val, c0⟩)) (fun b hb => ?_) (Nat.zero_add _))
    match b with
    | ⟨0, _⟩ => rfl
    | ⟨1, _⟩ => exact absurd rfl hb
  · have c1 : q.val - (N₁) < N₂ := by omega
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩] hc (ix2 p q) 1 (by show 1 < 2; omega) ⟨2, ![R, N₂]⟩ _ rfl rfl (N₁) (by simp [List.take, List.map, List.sum_cons]; try omega) (ix2 p ⟨q.val - (N₁), c1⟩) (fun b hb => ?_) (by show N₁ + (q.val - (N₁)) = q.val; omega)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩] hc' (hN.idx t (ix2 p q)) 1 (by show 1 < 2; omega) ⟨2, ![M, N₂]⟩ B rfl rfl (N₁) (by simp [List.take, List.map, List.sum_cons]; try omega) (h₂.idx t (ix2 p ⟨q.val - (N₁), c1⟩)) (fun b hb => ?_) (by show N₁ + (q.val - (N₁)) = q.val; omega))
    match b with
    | ⟨0, _⟩ => rfl
    | ⟨1, _⟩ => exact absurd rfl hb

/-- Four arrays side by side. -/
theorem concat4_rows {N₁ N₂ N₃ N₄ N : ℕ}
    (h₁ : Tiles ⟨2, ![R, N₁]⟩ ⟨2, ![M, N₁]⟩ 0 T) (h₂ : Tiles ⟨2, ![R, N₂]⟩ ⟨2, ![M, N₂]⟩ 0 T)
    (h₃ : Tiles ⟨2, ![R, N₃]⟩ ⟨2, ![M, N₃]⟩ 0 T) (h₄ : Tiles ⟨2, ![R, N₄]⟩ ⟨2, ![M, N₄]⟩ 0 T) (hN : Tiles ⟨2, ![R, N]⟩ ⟨2, ![M, N]⟩ 0 T)
    (t : Fin T)
    (hc : Shape.Concatenates [(⟨2, ![R, N₁]⟩ : Shape), ⟨2, ![R, N₂]⟩, ⟨2, ![R, N₃]⟩, ⟨2, ![R, N₄]⟩] ⟨2, ![R, N]⟩ 1)
    (hc' : Shape.Concatenates [(⟨2, ![M, N₁]⟩ : Shape), ⟨2, ![M, N₂]⟩, ⟨2, ![M, N₃]⟩, ⟨2, ![M, N₄]⟩] ⟨2, ![M, N]⟩ 1)
    (A : (⟨2, ![M, N₁]⟩ : Shape).Idx → α) (B : (⟨2, ![M, N₂]⟩ : Shape).Idx → α)
    (C : (⟨2, ![M, N₃]⟩ : Shape).Idx → α) (D : (⟨2, ![M, N₄]⟩ : Shape).Idx → α) :
    concatenate ⟨2, ![R, N]⟩ 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩,
        ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc
      = block ⟨2, ![R, N]⟩ ⟨2, ![M, N]⟩ 0 T t
          (concatenate ⟨2, ![M, N]⟩ 1 [⟨⟨2, ![M, N₁]⟩, A⟩, ⟨⟨2, ![M, N₂]⟩, B⟩, ⟨⟨2, ![M, N₃]⟩, C⟩, ⟨⟨2, ![M, N₄]⟩, D⟩] hc') hN := by
  funext y
  obtain ⟨p, q, rfl⟩ : ∃ (p : Fin R) (q : Fin N), y = ix2 p q := ⟨y 0, y 1, eq_ix2 y⟩
  have hsum : N₁ + (N₂ + (N₃ + (N₄ + (0)))) = N := hc.2.2
  have hq := q.isLt
  rw [block_apply]
  by_cases hc0 : q.val < N₁
  · have c0 : q.val < N₁ := hc0
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc (ix2 p q) 0 (by show 0 < 4; omega) ⟨2, ![R, N₁]⟩ _ rfl rfl (0) rfl (ix2 p ⟨q.val, c0⟩) (fun b hb => ?_) (Nat.zero_add _)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩, ⟨⟨2, ![M, N₄]⟩, D⟩] hc' (hN.idx t (ix2 p q)) 0 (by show 0 < 4; omega) ⟨2, ![M, N₁]⟩ A rfl rfl (0) rfl (h₁.idx t (ix2 p ⟨q.val, c0⟩)) (fun b hb => ?_) (Nat.zero_add _))
    match b with
    | ⟨0, _⟩ => rfl
    | ⟨1, _⟩ => exact absurd rfl hb
  by_cases hc1 : q.val < N₁ + N₂
  · have c1 : q.val - (N₁) < N₂ := by omega
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc (ix2 p q) 1 (by show 1 < 4; omega) ⟨2, ![R, N₂]⟩ _ rfl rfl (N₁) (by simp [List.take, List.map, List.sum_cons]; try omega) (ix2 p ⟨q.val - (N₁), c1⟩) (fun b hb => ?_) (by show N₁ + (q.val - (N₁)) = q.val; omega)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩, ⟨⟨2, ![M, N₄]⟩, D⟩] hc' (hN.idx t (ix2 p q)) 1 (by show 1 < 4; omega) ⟨2, ![M, N₂]⟩ B rfl rfl (N₁) (by simp [List.take, List.map, List.sum_cons]; try omega) (h₂.idx t (ix2 p ⟨q.val - (N₁), c1⟩)) (fun b hb => ?_) (by show N₁ + (q.val - (N₁)) = q.val; omega))
    match b with
    | ⟨0, _⟩ => rfl
    | ⟨1, _⟩ => exact absurd rfl hb
  by_cases hc2 : q.val < N₁ + N₂ + N₃
  · have c2 : q.val - (N₁ + N₂) < N₃ := by omega
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc (ix2 p q) 2 (by show 2 < 4; omega) ⟨2, ![R, N₃]⟩ _ rfl rfl (N₁ + N₂) (by simp [List.take, List.map, List.sum_cons]; try omega) (ix2 p ⟨q.val - (N₁ + N₂), c2⟩) (fun b hb => ?_) (by show N₁ + N₂ + (q.val - (N₁ + N₂)) = q.val; omega)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩, ⟨⟨2, ![M, N₄]⟩, D⟩] hc' (hN.idx t (ix2 p q)) 2 (by show 2 < 4; omega) ⟨2, ![M, N₃]⟩ C rfl rfl (N₁ + N₂) (by simp [List.take, List.map, List.sum_cons]; try omega) (h₃.idx t (ix2 p ⟨q.val - (N₁ + N₂), c2⟩)) (fun b hb => ?_) (by show N₁ + N₂ + (q.val - (N₁ + N₂)) = q.val; omega))
    match b with
    | ⟨0, _⟩ => rfl
    | ⟨1, _⟩ => exact absurd rfl hb
  · have c3 : q.val - (N₁ + N₂ + N₃) < N₄ := by omega
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc (ix2 p q) 3 (by show 3 < 4; omega) ⟨2, ![R, N₄]⟩ _ rfl rfl (N₁ + N₂ + N₃) (by simp [List.take, List.map, List.sum_cons]; try omega) (ix2 p ⟨q.val - (N₁ + N₂ + N₃), c3⟩) (fun b hb => ?_) (by show N₁ + N₂ + N₃ + (q.val - (N₁ + N₂ + N₃)) = q.val; omega)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩, ⟨⟨2, ![M, N₄]⟩, D⟩] hc' (hN.idx t (ix2 p q)) 3 (by show 3 < 4; omega) ⟨2, ![M, N₄]⟩ D rfl rfl (N₁ + N₂ + N₃) (by simp [List.take, List.map, List.sum_cons]; try omega) (h₄.idx t (ix2 p ⟨q.val - (N₁ + N₂ + N₃), c3⟩)) (fun b hb => ?_) (by show N₁ + N₂ + N₃ + (q.val - (N₁ + N₂ + N₃)) = q.val; omega))
    match b with
    | ⟨0, _⟩ => rfl
    | ⟨1, _⟩ => exact absurd rfl hb

end Cert.RowBlock

end
-- ==== Proof.LibRowBlockGate.lean ====
import Idealize.ShloMosaic.PureOps.Ideal.Laws
import Idealize.ShloMosaic.Lib.ValueIdx
import Idealize.ShloMosaic.Lib.Layout
import Idealize.ShloMosaic.Lib.Pipeline.Value
import proofs.«142134_j58609123721516_1_alg».proof.Proof.LibRowBlock

noncomputable section

/-! # Row blocks: the exponential, a quotient, and a column laid across the columns

Three more operations that work row by row and so commute with taking a block of rows (rows
`t·R … t·R + R − 1` of an array of `M = T·R` rows): the exponential and the quotient, entry by entry, and a column
`[M, 1]` copied across `N` columns, where entry `(r, q)` of the result is the column's entry in row `r`. On the
extended reals the on-chip exponential and quotient are the host's. -/

namespace Cert.RowBlock

open Idealize.ShloMosaic Idealize.ShloMosaic.ValueIdx Idealize.ShloMosaic.Layout

variable {R M T : ℕ} {α : Type}

section Pointwise
variable {N : ℕ} {φ : FTy} (hN : Tiles ⟨2, ![R, N]⟩ ⟨2, ![M, N]⟩ 0 T) (t : Fin T)
  (X Y : FVec Ideal ⟨2, ![M, N]⟩ φ)

/-- `e^x` of a block of rows is the block of `e^x`. -/
theorem exp_rows : exp (block ⟨2, ![R, N]⟩ ⟨2, ![M, N]⟩ 0 T t X hN)
    = block ⟨2, ![R, N]⟩ ⟨2, ![M, N]⟩ 0 T t (Host.exp X) hN := rfl

/-- `x / y` of two blocks of rows is the block of `x / y`. -/
theorem divf_rows : divf (block ⟨2, ![R, N]⟩ ⟨2, ![M, N]⟩ 0 T t X hN) (block ⟨2, ![R, N]⟩ ⟨2, ![M, N]⟩ 0 T t Y hN)
    = block ⟨2, ![R, N]⟩ ⟨2, ![M, N]⟩ 0 T t (Host.divf X Y) hN := rfl
end Pointwise

/-- A column copied across `N` columns: entry `(r, q)` of the block is the column's entry in row `t·R + r`, which
    is entry `(r, 0)` of the column's own block. -/
theorem column_rows {N : ℕ} (h1 : Tiles ⟨2, ![R, 1]⟩ ⟨2, ![M, 1]⟩ 0 T) (hN : Tiles ⟨2, ![R, N]⟩ ⟨2, ![M, N]⟩ 0 T) (t : Fin T)
    (hbt : (⟨2, ![R, 1]⟩ : Shape).Broadcasts ⟨2, ![R, N]⟩)
    (hb : (⟨2, ![M, 1]⟩ : Shape).BroadcastsInDim ⟨2, ![M, N]⟩ (![0, 1] : Fin 2 → Fin 2))
    (col : (⟨2, ![M, 1]⟩ : Shape).Idx → α) :
    broadcastTo ⟨2, ![R, N]⟩ (block ⟨2, ![R, 1]⟩ ⟨2, ![M, 1]⟩ 0 T t col h1) hbt
      = block ⟨2, ![R, N]⟩ ⟨2, ![M, N]⟩ 0 T t (broadcastInDim ⟨2, ![M, N]⟩ ![0, 1] hb col) hN := by
  funext y
  obtain ⟨p, q, rfl⟩ : ∃ (p : Fin R) (q : Fin N), y = ix2 p q := ⟨y 0, y 1, eq_ix2 y⟩
  have hl : broadcastTo ⟨2, ![R, N]⟩ (block ⟨2, ![R, 1]⟩ ⟨2, ![M, 1]⟩ 0 T t col h1) hbt (ix2 p q)
      = block ⟨2, ![R, 1]⟩ ⟨2, ![M, 1]⟩ 0 T t col h1 (ix2 p (0 : Fin 1)) := by
    refine broadcastTo_apply _ hbt (ix2 p q) (ix2 p (0 : Fin 1)) fun a => ?_
    match a with
    | ⟨0, _⟩ =>
      show p.val = if R = 1 then 0 else p.val
      split
      · have := p.isLt; omega
      · rfl
    | ⟨1, _⟩ => rfl
  rw [hl, block_apply, block_apply]
  refine Eq.symm (broadcastInDim_apply ![0, 1] hb col (hN.idx t (ix2 p q)) (h1.idx t (ix2 p (0 : Fin 1))) fun a => ?_)
  match a with
  | ⟨0, _⟩ =>
    show t.val * R + p.val = if M = 1 then 0 else t.val * R + p.val
    split
    · rename_i hM
      have hlt : t.val * R + p.val < M := (hN.idx t (ix2 p q) 0).isLt
      omega
    · rfl
  | ⟨1, _⟩ => rfl

end Cert.RowBlock

end
-- ==== Proof.KPay.lean ====
/-
  The first kernel's payloads as mathematics, on the extended reals.

  `k0_pay4` on a block of 5000 rows of `h`, of the neighbour means and of the graph-norm column, with the two
  weight matrices and the bias whole, is that block of rows of the dense layer `RefSpec.actOf` of the whole arrays:
  every operation in it works row by row, and rounding the matrix unit's operands to a narrower format changes
  nothing on the extended reals. `k0_pay5` adds to a running row the block's column sums, `k0_pay1` the column
  sums of squares; `k0_pay2` and `k0_pay3` are zero rows.
-/
import proofs.«142134_j58609123721516_1_alg».proof.Proof.Gen.KernelIdeal.Skeleton
import proofs.«142134_j58609123721516_1_alg».proof.Proof.RefSpec
import proofs.«142134_j58609123721516_1_alg».proof.Proof.LibRowBlock
import proofs.«142134_j58609123721516_1_alg».proof.Proof.LibRowBlockGate
import Idealize.ShloMosaic.Lib.ValueIdx
import Idealize.ShloMosaic.Lib.ValueLayout
import Idealize.ShloMosaic.Lib.Layout
import Idealize.ShloMosaic.PureOps.Ideal.Laws

noncomputable section

open scoped BigOperators

namespace Cert.KPay

open Idealize.ShloMosaic Idealize.ShloMosaic.ValueIdx Idealize.ShloMosaic.Layout
open Cert.KernelIdeal Cert.KernelIdeal.Gen

/-- The 40000 rows are eight blocks of 5000, at 128 columns and at one column. -/
theorem tiles128 : Tiles S5000x128 S40000x128 0 8 := by decide
theorem tiles1 : Tiles S5000x1 S40000x1 0 8 := by decide

/-- The activation payload on row block `t` of the inputs is row block `t` of the dense layer of the whole arrays. -/
theorem pay4_rows (t : Fin 8) (h hn : FVec Ideal S40000x128 .f32) (sn : FVec Ideal S40000x1 .f32)
    (Ws Wn : FVec Ideal S128x128 .f32) (b : FVec Ideal S128 .f32) :
    k0_pay4 (F := Ideal) (block S5000x128 S40000x128 0 8 t h tiles128) (block S5000x128 S40000x128 0 8 t hn tiles128)
        Ws Wn b (block S5000x1 S40000x1 0 8 t sn tiles1)
      = block S5000x128 S40000x128 0 8 t (Cert.RefSpec.actOf (F := Ideal) h hn sn Ws Wn b) tiles128 := by
  -- the two records are the plain "rows by contraction, contraction by columns" dimension numbers
  have hd₁ : dot_S5000x128_S128x128_S5000x128_1_0_0_1_n_n = DotDims.plain 5000 128 128 := rfl
  have hd₂ : Cert.ReferenceIdeal.dot_S40000x128_S128x128_S40000x128_1_0_0_1_n_n = DotDims.plain 40000 128 128 := rfl
  -- h · Ws and hn · Wn: the block's product with the shared matrix is the block of the whole product
  have e1 := Cert.RowBlock.dot_rows_trunc (R := 5000) (M := 40000) (T := 8) (K := 128) (N := 128)
    bitsLt_bf16_f32 bitsLt_bf16_f32 dot_S5000x128_S128x128_S5000x128_1_0_0_1_n_n hd₁
    Cert.ReferenceIdeal.dot_S40000x128_S128x128_S40000x128_1_0_0_1_n_n hd₂ tiles128 tiles128 none none t h Ws
  have e2 := Cert.RowBlock.dot_rows_trunc (R := 5000) (M := 40000) (T := 8) (K := 128) (N := 128)
    bitsLt_bf16_f32 bitsLt_bf16_f32 dot_S5000x128_S128x128_S5000x128_1_0_0_1_n_n hd₁
    Cert.ReferenceIdeal.dot_S40000x128_S128x128_S40000x128_1_0_0_1_n_n hd₂ tiles128 tiles128 none none t hn Wn
  -- the bias row under every row, the zero constant, and the graph-norm column across the 128 columns
  have e3 := Cert.RowBlock.bias_rows (R := 5000) (M := 40000) (T := 8) (N := 128) tiles128 t
    shapeCasts_S128_S1x128 broadcasts_S1x128_S5000x128
    Cert.ReferenceIdeal.Gen.bcast_S128_S1x128_1 Cert.ReferenceIdeal.Gen.bcast_S1x128_S40000x128_0_1 b
  have e4 := Cert.RowBlock.splat_rows (R := 5000) (M := 40000) (T := 8) (N := 128) tiles128 t
    Cert.ReferenceIdeal.Gen.bcast_S_S40000x128 0x00000000#32
  have e5 := Cert.RowBlock.column_rows (R := 5000) (M := 40000) (T := 8) (N := 128) tiles1 tiles128 t
    broadcasts_S5000x1_S5000x128 Cert.ReferenceIdeal.Gen.bcast_S40000x1_S40000x128_0_1 sn
  unfold k0_pay4 Cert.RefSpec.actOf
  simp only [shapeCast_self]
  -- sum, maximum and product work entry by entry, so they pass through the block
  exact (congrArg₂ mulf (congrArg₂ maximumf (congrArg₂ addf (congrArg₂ addf e1 e2) e3) e4) e5)

/-- The zero rows. -/
theorem pay2_apply (q : Fin 128) : k0_pay2 (F := Ideal) (ix2 (0 : Fin 1) q) = 0 := by
  show Ideal.ofBits .f32 0x00000000#32 = 0
  simp [Ideal.ofBits, Ideal.ieee]
theorem pay3_apply (q : Fin 128) : k0_pay3 (F := Ideal) (ix2 (0 : Fin 1) q) = 0 := by
  show Ideal.ofBits .f32 0x00000000#32 = 0
  simp [Ideal.ofBits, Ideal.ieee]

/-- The running column totals: the row before plus the block's column sums of the activation payload. -/
theorem pay5_apply (x0 x1 : Vec Ideal S5000x128 .f32) (x3 x4 : Vec Ideal S128x128 .f32) (x5 : Vec Ideal S128 .f32)
    (x2 : Vec Ideal S5000x1 .f32) (v : Vec Ideal S1x128 .f32) (q : Fin 128) :
    k0_pay5 (F := Ideal) x0 x1 x3 x4 x5 x2 v (ix2 (0 : Fin 1) q)
      = v (ix2 (0 : Fin 1) q) + ∑ r : Fin 5000, k0_pay4 (F := Ideal) x0 x1 x3 x4 x5 x2 (ix2 r q) := by
  -- the index the column sum inserts row `r` into, at column `q`, is `(r, q)`
  have lift_rows : ∀ r : Fin 5000, reduces_S5000x128_S128.lift (ix1 q) r = (ix2 r q : S5000x128.Idx) := fun r => by
    funext a
    match a with
    | ⟨0, _⟩ => rfl
    | ⟨1, _⟩ => rfl
  unfold k0_pay5
  simp only [shapeCast_self]
  show v (ix2 (0 : Fin 1) q)
      + shapeCast S1x128 (multiReduction (F := Ideal) .add [0] S128 (k0_pay4 (F := Ideal) x0 x1 x3 x4 x5 x2) 0x00000000#32
          reduces_S5000x128_S128 (.inl rfl) rfl) shapeCasts_S128_S1x128 (ix2 (0 : Fin 1) q) = _
  rw [shapeCast_a_1a_apply]
  refine congrArg (fun z => v (ix2 (0 : Fin 1) q) + z) ?_
  refine (Ideal.multiReduction_add_single (k0_pay4 (F := Ideal) x0 x1 x3 x4 x5 x2) _ reduces_S5000x128_S128 _ _ (ix1 q)).trans ?_
  exact Finset.sum_congr rfl fun r _ => congrArg (k0_pay4 (F := Ideal) x0 x1 x3 x4 x5 x2) (lift_rows r)

/-- The running totals of squares: the row before plus the block's column sums of squares. -/
theorem pay1_apply (y : FVec Ideal S5000x128 .f32) (v : Vec Ideal S1x128 .f32) (q : Fin 128) :
    k0_pay1 (F := Ideal) y v (ix2 (0 : Fin 1) q)
      = v (ix2 (0 : Fin 1) q) + ∑ r : Fin 5000, y (ix2 r q) * y (ix2 r q) := by
  -- the index the column sum inserts row `r` into, at column `q`, is `(r, q)`
  have lift_rows : ∀ r : Fin 5000, reduces_S5000x128_S128.lift (ix1 q) r = (ix2 r q : S5000x128.Idx) := fun r => by
    funext a
    match a with
    | ⟨0, _⟩ => rfl
    | ⟨1, _⟩ => rfl
  unfold k0_pay1
  simp only [shapeCast_self]
  show v (ix2 (0 : Fin 1) q)
      + shapeCast S1x128 (multiReduction (F := Ideal) .add [0] S128 (mulf y y) 0x00000000#32
          reduces_S5000x128_S128 (.inl rfl) rfl) shapeCasts_S128_S1x128 (ix2 (0 : Fin 1) q) = _
  rw [shapeCast_a_1a_apply]
  refine congrArg (fun z => v (ix2 (0 : Fin 1) q) + z) ?_
  refine (Ideal.multiReduction_add_single (mulf y y) _ reduces_S5000x128_S128 _ _ (ix1 q)).trans ?_
  exact Finset.sum_congr rfl fun r _ => congrArg (fun i => y i * y i) (lift_rows r)

end Cert.KPay

end
-- ==== Proof.LibPartialSum.lean ====
/-
  Partial sums along a finite index range.

  For a family f over the positions 0, …, N − 1 with values in a commutative additive monoid, psum f n is the sum of
  f over the positions below n; a position at or beyond N counts as zero, so psum f n is defined for every n. Three
  facts: the empty partial sum is zero; the partial sum up to n + b is the partial sum up to n plus the block of b
  terms f(n), …, f(n + b − 1), when that block lies inside the range; and the partial sum up to N is the sum of f over
  all positions. Together they say a sum over the whole range can be reached by adding it block by block.
-/
import Mathlib.Algebra.BigOperators.Fin
import Mathlib.Algebra.BigOperators.Group.Finset.Basic

noncomputable section

namespace Cert.PartialSum

variable {M : Type*} [AddCommMonoid M]

/-- The sum of f over the positions below n (positions at or beyond N contribute nothing). -/
def psum {N : ℕ} (f : Fin N → M) (n : ℕ) : M := ∑ q ∈ Finset.range n, if h : q < N then f ⟨q, h⟩ else 0

/-- The sum over no positions is zero. -/
theorem psum_zero {N : ℕ} (f : Fin N → M) : psum f 0 = 0 := by
  unfold psum
  exact Finset.sum_range_zero _

/-- The sum over the positions below n + b is the sum over those below n plus the block f(n), …, f(n + b − 1), when
    n + b ≤ N. -/
theorem psum_add {N : ℕ} (f : Fin N → M) (n b : ℕ) (h : n + b ≤ N) :
    psum f (n + b) = psum f n + ∑ r : Fin b, f ⟨n + r.val, by omega⟩ := by
  unfold psum
  rw [Finset.sum_range_add]
  refine congrArg _ ?_
  rw [Finset.sum_range]
  refine Finset.sum_congr rfl fun r _ => ?_
  exact dif_pos (show n + r.val < N by omega)

/-- The sum over the positions below N is the sum over all of them. -/
theorem psum_full {N : ℕ} (f : Fin N → M) : psum f N = ∑ k : Fin N, f k := by
  unfold psum
  rw [Finset.sum_range]
  exact Finset.sum_congr rfl fun k _ => dif_pos k.isLt

end Cert.PartialSum

end
-- ==== Proof.KRegion0.lean ====
/-
  The first kernel region, read as values.

  The region walks the 40000 nodes in eight blocks of 5000 rows. At point `t` its body sees rows
  `5000 t … 5000 t + 4999` of `h`, of the neighbour means and of the graph-norm column, and the two weight matrices
  and the bias whole. It writes the block's activations, rows `5000 t …` of the dense layer `Y` of the whole arrays,
  into the first output, and keeps two rows of running column totals, of `Y` and of `Y²`, which after point `t`
  hold the sums over the rows below `5000 (t + 1)`. After the last point the first output is `Y` and the two rows
  hold the column sums over all 40000 rows.
-/
import proofs.«142134_j58609123721516_1_alg».proof.Proof.Gen.KernelIdeal.Frame
import proofs.«142134_j58609123721516_1_alg».proof.Proof.KPieces
import proofs.«142134_j58609123721516_1_alg».proof.Proof.KPay
import proofs.«142134_j58609123721516_1_alg».proof.Proof.LibPartialSum
import Idealize.ShloMosaic.Lib.Pipeline.Value
import Idealize.ShloMosaic.Lib.ValueIdx
import Idealize.ShloMosaic.Lib.Layout

set_option maxRecDepth 16384

noncomputable section

open scoped BigOperators

namespace Cert.KernelIdeal.KRegion0

open Idealize.ShloMosaic Idealize.ShloMosaic.TcCoe Idealize.SL.Sem Idealize.ShloMosaic.ValueIdx Idealize.ShloMosaic.Layout
open Idealize.ShloMosaic.Pipeline (Dat)
open Cert.KernelIdeal Cert.KernelIdeal.Gen Cert.PartialSum

variable (V : (c : Dev nD) → (b : Ref sig .tc) → Buf (Elt Ideal) ((c : Thread nD τ).loc b))

/-- The printed index maps over the grid: the three row-blocked inputs and the first output move one block of rows
    per point; the matrices, the bias and the two total rows stay at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- A grid point as a block number. -/
def tb (t : Fin cfg0.N) : Fin 8 := ⟨t.val, Nat.lt_of_lt_of_eq t.isLt N_0⟩

/-- The input blocks at a point, at their literal types. -/
abbrev hblk (c : Dev nD) (t : Fin cfg0.N) : Vec Ideal S5000x128 .f32 := iblk0 V c 0 t
abbrev nblk (c : Dev nD) (t : Fin cfg0.N) : Vec Ideal S5000x128 .f32 := iblk0 V c 1 t
abbrev sblk (c : Dev nD) (t : Fin cfg0.N) : Vec Ideal S5000x1 .f32 := iblk0 V c 2 t
abbrev wsblk (c : Dev nD) (t : Fin cfg0.N) : Vec Ideal S128x128 .f32 := iblk0 V c 3 t
abbrev wnblk (c : Dev nD) (t : Fin cfg0.N) : Vec Ideal S128x128 .f32 := iblk0 V c 4 t
abbrev bblk (c : Dev nD) (t : Fin cfg0.N) : Vec Ideal S128 .f32 := iblk0 V c 5 t

/-- The entry arrays, at their literal types. -/
abbrev harr (c : Dev nD) : FVec Ideal S40000x128 .f32 := V c main_arg0
abbrev narr (c : Dev nD) : FVec Ideal S40000x128 .f32 := V c main_v18
abbrev sarr (c : Dev nD) : FVec Ideal S40000x1 .f32 := V c main_arg1
abbrev wsarr (c : Dev nD) : FVec Ideal S128x128 .f32 := V c main_arg2
abbrev wnarr (c : Dev nD) : FVec Ideal S128x128 .f32 := V c main_arg3
abbrev barr (c : Dev nD) : FVec Ideal S128 .f32 := V c main_arg4

theorem hblk_eq (c : Dev nD) (t : Fin cfg0.N) :
    hblk V c t = block S5000x128 S40000x128 0 8 (tb t) (harr V c) Cert.KPay.tiles128 := by
  obtain ⟨e00, e01, -⟩ := idx_facts t
  funext j
  show V c main_arg0 (((cfg0.win 0).blk t).view.emb j) = V c main_arg0 (Cert.KPay.tiles128.idx (tb t) j)
  refine congrArg (V c main_arg0) ?_
  funext a; apply Fin.ext
  match a with
  | ⟨0, _⟩ => show win0_0.index t (0 : Fin 2) * 5000 + 1 * (j 0).val = t.val * 5000 + (j 0).val; omega
  | ⟨1, _⟩ => show win0_0.index t (1 : Fin 2) * 128 + 1 * (j 1).val = (j 1).val; omega

theorem nblk_eq (c : Dev nD) (t : Fin cfg0.N) :
    nblk V c t = block S5000x128 S40000x128 0 8 (tb t) (narr V c) Cert.KPay.tiles128 := by
  obtain ⟨-, -, e10, e11, -⟩ := idx_facts t
  funext j
  show V c main_v18 (((cfg0.win 1).blk t).view.emb j) = V c main_v18 (Cert.KPay.tiles128.idx (tb t) j)
  refine congrArg (V c main_v18) ?_
  funext a; apply Fin.ext
  match a with
  | ⟨0, _⟩ => show win0_1.index t (0 : Fin 2) * 5000 + 1 * (j 0).val = t.val * 5000 + (j 0).val; omega
  | ⟨1, _⟩ => show win0_1.index t (1 : Fin 2) * 128 + 1 * (j 1).val = (j 1).val; omega

theorem sblk_eq (c : Dev nD) (t : Fin cfg0.N) :
    sblk V c t = block S5000x1 S40000x1 0 8 (tb t) (sarr V c) Cert.KPay.tiles1 := by
  obtain ⟨-, -, -, -, e20, e21, -⟩ := idx_facts t
  funext j
  show V c main_arg1 (((cfg0.win 2).blk t).view.emb j) = V c main_arg1 (Cert.KPay.tiles1.idx (tb t) j)
  refine congrArg (V c main_arg1) ?_
  funext a; apply Fin.ext
  match a with
  | ⟨0, _⟩ => show win0_2.index t (0 : Fin 2) * 5000 + 1 * (j 0).val = t.val * 5000 + (j 0).val; omega
  | ⟨1, _⟩ => show win0_2.index t (1 : Fin 2) * 1 + 1 * (j 1).val = (j 1).val; omega

theorem wsblk_eq (c : Dev nD) (t : Fin cfg0.N) : wsblk V c t = wsarr V c := by
  obtain ⟨-, -, -, -, -, -, e30, e31, -⟩ := idx_facts t
  funext j
  show V c main_arg2 (((cfg0.win 3).blk t).view.emb j) = V c main_arg2 j
  refine congrArg (V c main_arg2) ?_
  funext a; apply Fin.ext
  match a with
  | ⟨0, _⟩ => show win0_3.index t (0 : Fin 2) * 128 + 1 * (j 0).val = (j 0).val; omega
  | ⟨1, _⟩ => show win0_3.index t (1 : Fin 2) * 128 + 1 * (j 1).val = (j 1).val; omega

theorem wnblk_eq (c : Dev nD) (t : Fin cfg0.N) : wnblk V c t = wnarr V c := by
  obtain ⟨-, -, -, -, -, -, -, -, e40, e41, -⟩ := idx_facts t
  funext j
  show V c main_arg3 (((cfg0.win 4).blk t).view.emb j) = V c main_arg3 j
  refine congrArg (V c main_arg3) ?_
  funext a; apply Fin.ext
  match a with
  | ⟨0, _⟩ => show win0_4.index t (0 : Fin 2) * 128 + 1 * (j 0).val = (j 0).val; omega
  | ⟨1, _⟩ => show win0_4.index t (1 : Fin 2) * 128 + 1 * (j 1).val = (j 1).val; omega

theorem bblk_eq (c : Dev nD) (t : Fin cfg0.N) : bblk V c t = barr V c := by
  obtain ⟨-, -, -, -, -, -, -, -, -, -, e50, -⟩ := idx_facts t
  funext j
  show V c main_arg4 (((cfg0.win 5).blk t).view.emb j) = V c main_arg4 j
  refine congrArg (V c main_arg4) ?_
  funext a; apply Fin.ext
  match a with
  | ⟨0, _⟩ => show win0_5.index t (0 : Fin 1) * 128 + 1 * (j 0).val = (j 0).val; omega

/-- The dense layer of the arrays the region finds. -/
def Y (c : Dev nD) : FVec Ideal S40000x128 .f32 :=
  Cert.RefSpec.actOf (F := Ideal) (harr V c) (narr V c) (sarr V c) (wsarr V c) (wnarr V c) (barr V c)

/-- The activation payload at point `t` is row block `t` of `Y`. -/
theorem pay4_at (c : Dev nD) (t : Fin cfg0.N) :
    k0_pay4 (F := Ideal) (hblk V c t) (nblk V c t) (wsblk V c t) (wnblk V c t) (bblk V c t) (sblk V c t)
      = block S5000x128 S40000x128 0 8 (tb t) (Y V c) Cert.KPay.tiles128 := by
  rw [hblk_eq, nblk_eq, sblk_eq, wsblk_eq, wnblk_eq, bblk_eq]
  exact Cert.KPay.pay4_rows (tb t) (harr V c) (narr V c) (sarr V c) (wsarr V c) (wnarr V c) (barr V c)

/-- Entry (r, q) of row block `k` of `Y` is entry (5000 k + r, q) of `Y`. -/
theorem block_Y_apply (c : Dev nD) (k : Fin 8) (r : Fin 5000) (q : Fin 128) :
    block S5000x128 S40000x128 0 8 k (Y V c) Cert.KPay.tiles128 (ix2 r q)
      = Y V c (ix2 (⟨k.val * 5000 + r.val, by have := k.isLt; have := r.isLt; omega⟩ : Fin 40000) q) := by
  rw [block_apply]
  refine congrArg (Y V c) ?_
  funext a
  match a with
  | ⟨0, _⟩ => exact Fin.ext rfl
  | ⟨1, _⟩ => exact Fin.ext rfl

/-- Column `q` of `Y`, and of its squares. -/
def col (c : Dev nD) (q : Fin 128) : Fin 40000 → EReal := fun i => Y V c (ix2 i q)
def colSq (c : Dev nD) (q : Fin 128) : Fin 40000 → EReal := fun i => Y V c (ix2 i q) * Y V c (ix2 i q)

/-- THE INVARIANT. After point `n` the first output's block is row block `n` of `Y`, and the two total rows hold
    the column sums of `Y` and of `Y²` over the rows below `5000 (n + 1)`. -/
theorem outs_eq (c : Dev nD) : ∀ (n : ℕ) (hn : n < cfg0.N),
    (outsAt0 V c n hn).1 = block S5000x128 S40000x128 0 8 (tb ⟨n, hn⟩) (Y V c) Cert.KPay.tiles128
    ∧ (∀ q : Fin 128, (outsAt0 V c n hn).2.1 (ix2 (0 : Fin 1) q) = psum (col V c q) (5000 * (n + 1)))
    ∧ (∀ q : Fin 128, (outsAt0 V c n hn).2.2 (ix2 (0 : Fin 1) q) = psum (colSq V c q) (5000 * (n + 1)))
  | 0, hn => by
    rw [outsAt0_A V c ⟨0, hn⟩ rfl]
    dsimp only
    refine ⟨?_, fun q => ?_, fun q => ?_⟩
    · rw [Cert.KPieces.out_A_6]
      exact pay4_at V c ⟨0, hn⟩
    · rw [Cert.KPieces.out_A_7, Cert.KPay.pay5_apply, Cert.KPay.pay2_apply, zero_add]
      rw [show 5000 * (0 + 1) = 0 + 5000 from rfl, psum_add (col V c q) 0 5000 (by omega), psum_zero, zero_add]
      refine Finset.sum_congr rfl fun r _ => ?_
      refine (congrFun (pay4_at V c ⟨0, hn⟩) (ix2 r q)).trans ?_
      refine (block_Y_apply V c _ r q).trans ?_
      show Y V c (ix2 _ q) = Y V c (ix2 _ q)
      refine congrArg (fun i => Y V c (ix2 i q)) (Fin.ext ?_)
      show 0 * 5000 + r.val = 0 + r.val
      omega
    · rw [Cert.KPieces.out_A_8, Cert.KPay.pay1_apply, Cert.KPay.pay3_apply, zero_add]
      rw [show 5000 * (0 + 1) = 0 + 5000 from rfl, psum_add (colSq V c q) 0 5000 (by omega), psum_zero, zero_add]
      refine Finset.sum_congr rfl fun r _ => ?_
      have e : k0_pay4 (F := Ideal) (hblk V c ⟨0, hn⟩) (nblk V c ⟨0, hn⟩) (wsblk V c ⟨0, hn⟩) (wnblk V c ⟨0, hn⟩) (bblk V c ⟨0, hn⟩) (sblk V c ⟨0, hn⟩) (ix2 r q)
          = Y V c (ix2 (⟨0 + r.val, by have := r.isLt; omega⟩ : Fin 40000) q) := by
        refine (congrFun (pay4_at V c ⟨0, hn⟩) (ix2 r q)).trans ?_
        refine (block_Y_apply V c _ r q).trans ?_
        refine congrArg (fun i => Y V c (ix2 i q)) (Fin.ext ?_)
        show 0 * 5000 + r.val = 0 + r.val
        omega
      show _ * _ = Y V c (ix2 _ q) * Y V c (ix2 _ q)
      rw [← e]
  | n + 1, hn => by
    have hN : cfg0.N = 8 := N_0
    have hB : ¬(⟨n + 1, hn⟩ : Fin cfg0.N).val % 8 = 0 := by dsimp only; omega
    obtain ⟨-, ih1, ih2⟩ := outs_eq c n (Nat.lt_of_succ_lt hn)
    rw [outsAt0_B V c ⟨n + 1, hn⟩ hB]
    dsimp only
    have e : ∀ (r : Fin 5000) (q : Fin 128),
        k0_pay4 (F := Ideal) (hblk V c ⟨n + 1, hn⟩) (nblk V c ⟨n + 1, hn⟩) (wsblk V c ⟨n + 1, hn⟩) (wnblk V c ⟨n + 1, hn⟩) (bblk V c ⟨n + 1, hn⟩) (sblk V c ⟨n + 1, hn⟩) (ix2 r q)
          = Y V c (ix2 (⟨5000 * (n + 1) + r.val, by have := r.isLt; omega⟩ : Fin 40000) q) := by
      intro r q
      refine (congrFun (pay4_at V c ⟨n + 1, hn⟩) (ix2 r q)).trans ?_
      refine (block_Y_apply V c _ r q).trans ?_
      refine congrArg (fun i => Y V c (ix2 i q)) (Fin.ext ?_)
      show (n + 1) * 5000 + r.val = 5000 * (n + 1) + r.val
      omega
    refine ⟨?_, fun q => ?_, fun q => ?_⟩
    · rw [Cert.KPieces.out_B_6]
      exact pay4_at V c ⟨n + 1, hn⟩
    · rw [Cert.KPieces.out_B_7, Cert.KPay.pay5_apply]
      show (outsAt0 V c n (Nat.lt_of_succ_lt hn)).2.1 (ix2 (0 : Fin 1) q) + _ = _
      rw [ih1 q, show 5000 * (n + 1 + 1) = 5000 * (n + 1) + 5000 from by omega,
        psum_add (col V c q) (5000 * (n + 1)) 5000 (by omega)]
      refine congrArg _ (Finset.sum_congr rfl fun r _ => ?_)
      exact e r q
    · rw [Cert.KPieces.out_B_8, Cert.KPay.pay1_apply]
      show (outsAt0 V c n (Nat.lt_of_succ_lt hn)).2.2 (ix2 (0 : Fin 1) q) + _ = _
      rw [ih2 q, show 5000 * (n + 1 + 1) = 5000 * (n + 1) + 5000 from by omega,
        psum_add (colSq V c q) (5000 * (n + 1)) 5000 (by omega)]
      refine congrArg _ (Finset.sum_congr rfl fun r _ => ?_)
      show _ * _ = Y V c (ix2 _ q) * Y V c (ix2 _ q)
      rw [← e r q]

/-! ## The three arrays after the run -/

/-- The first output: what point `t` writes back is block `t` of `Y`. -/
theorem flushed6_eq (c : Dev nD) (t : Fin cfg0.N) :
    (dat0 V c).flushed 6 t = ((cfg0.win 6).blk t).view.read (Elt Ideal) (Y V c) := by
  show (cfg0.win 6).cut (grid0.coords t) ((dat0 V c).after 6 t) = _
  rw [after0_6, (outs_eq V c t.val t.isLt).1]
  obtain ⟨-, -, -, -, -, -, -, -, -, -, -, e60, e61, -⟩ := idx_facts t
  funext j
  show Y V c (Cert.KPay.tiles128.idx (tb ⟨t.val, t.isLt⟩) j) = Y V c (((cfg0.win 6).blk t).view.emb j)
  refine congrArg (Y V c) ?_
  funext a; apply Fin.ext
  match a with
  | ⟨0, _⟩ => show t.val * 5000 + (j 0).val = win0_6.index t (0 : Fin 2) * 5000 + 1 * (j 0).val; omega
  | ⟨1, _⟩ => show (j 1).val = win0_6.index t (1 : Fin 2) * 128 + 1 * (j 1).val; omega

theorem mem_blk6 (t : Fin cfg0.N) (i : S40000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v19_0).slice (win0_6.rect t)).set ↔ _
  rw [View.set_slice_whole, Rect.mem_set_unit]
  exact Iff.rfl

theorem cover6 (i : S40000x128.Idx) : ∃ t : Fin cfg0.N, (cfg0.win 6).flush t = true ∧ i ∈ ((cfg0.win 6).blk t).view.set := by
  have hi0 : (i 0).val < 40000 := (i 0).isLt
  have hi1 : (i 1).val < 128 := (i 1).isLt
  have hN : cfg0.N = 8 := N_0
  let t : Fin cfg0.N := ⟨(i 0).val / 5000, by rw [hN]; omega⟩
  obtain ⟨-, -, -, -, -, -, -, -, -, -, -, e60, e61, -⟩ := idx_facts t
  have e60' : win0_6.index t (0 : Fin 2) = (i 0).val / 5000 := e60
  refine ⟨t, flush0_6 t, ?_⟩
  rw [mem_blk6]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- The activations array after the run is `Y`. -/
theorem final6 (c : Dev nD) : (dat0 V c).arrAt 6 cfg0.N = Y V c :=
  (dat0 V c).arrAt_eq_of_cover 6 (Y V c) (fun t _ => flushed6_eq V c t) cover6

/-- The column sums of `Y` and of `Y²`, as rows. -/
def tot (c : Dev nD) : FVec Ideal S1x128 .f32 := fun j => ∑ i : Fin 40000, Y V c (ix2 i (j 1))
def totSq (c : Dev nD) : FVec Ideal S1x128 .f32 := fun j => ∑ i : Fin 40000, Y V c (ix2 i (j 1)) * Y V c (ix2 i (j 1))

theorem last_of_flush7 (t : Fin cfg0.N) (hf : (cfg0.win 7).flush t = true) : t.val = 7 := by
  have hN : cfg0.N = 8 := N_0
  have := (flush0_7 t).mp hf; have := t.isLt; omega

theorem last_of_flush8 (t : Fin cfg0.N) (hf : (cfg0.win 8).flush t = true) : t.val = 7 := by
  have hN : cfg0.N = 8 := N_0
  have := (flush0_8 t).mp hf; have := t.isLt; omega

/-- The column totals as sums of the columns. -/
theorem tot_apply (c : Dev nD) (q : Fin 128) : tot V c (ix2 (0 : Fin 1) q) = ∑ i : Fin 40000, col V c q i := by
  unfold tot col
  exact Finset.sum_congr rfl fun i _ => rfl

theorem totSq_apply (c : Dev nD) (q : Fin 128) : totSq V c (ix2 (0 : Fin 1) q) = ∑ i : Fin 40000, colSq V c q i := by
  unfold totSq colSq
  exact Finset.sum_congr rfl fun i _ => rfl

/-- A total row's one write-back, at the last point, writes any row that agrees with the running totals there. -/
theorem flushed7_of (c : Dev nD) (t : Fin cfg0.N) (G : FVec Ideal S1x128 .f32)
    (hG : ∀ q : Fin 128, (outsAt0 V c t.val t.isLt).2.1 (ix2 (0 : Fin 1) q) = G (ix2 (0 : Fin 1) q)) :
    (dat0 V c).flushed 7 t = ((cfg0.win 7).blk t).view.read (Elt Ideal) G := by
  show (cfg0.win 7).cut (grid0.coords t) ((dat0 V c).after 7 t) = _
  rw [after0_7]
  obtain ⟨-, -, -, -, -, -, -, -, -, -, -, -, -, e70, e71, -⟩ := idx_facts t
  funext j
  obtain ⟨u, q, rfl⟩ : ∃ (u : Fin 1) (q : Fin 128), j = ix2 u q := ⟨j 0, j 1, eq_ix2 j⟩
  obtain rfl : u = 0 := Subsingleton.elim _ _
  show (outsAt0 V c t.val t.isLt).2.1 (ix2 (0 : Fin 1) q) = G (((cfg0.win 7).blk t).view.emb (ix2 (0 : Fin 1) q))
  rw [hG q]
  refine congrArg G ?_
  funext a; apply Fin.ext
  match a with
  | ⟨0, _⟩ => show 0 = win0_7.index t (0 : Fin 2) * 1 + 1 * 0; omega
  | ⟨1, _⟩ => show q.val = win0_7.index t (1 : Fin 2) * 128 + 1 * q.val; omega

theorem flushed8_of (c : Dev nD) (t : Fin cfg0.N) (G : FVec Ideal S1x128 .f32)
    (hG : ∀ q : Fin 128, (outsAt0 V c t.val t.isLt).2.2 (ix2 (0 : Fin 1) q) = G (ix2 (0 : Fin 1) q)) :
    (dat0 V c).flushed 8 t = ((cfg0.win 8).blk t).view.read (Elt Ideal) G := by
  show (cfg0.win 8).cut (grid0.coords t) ((dat0 V c).after 8 t) = _
  rw [after0_8]
  obtain ⟨-, -, -, -, -, -, -, -, -, -, -, -, -, -, -, e80, e81⟩ := idx_facts t
  funext j
  obtain ⟨u, q, rfl⟩ : ∃ (u : Fin 1) (q : Fin 128), j = ix2 u q := ⟨j 0, j 1, eq_ix2 j⟩
  obtain rfl : u = 0 := Subsingleton.elim _ _
  show (outsAt0 V c t.val t.isLt).2.2 (ix2 (0 : Fin 1) q) = G (((cfg0.win 8).blk t).view.emb (ix2 (0 : Fin 1) q))
  rw [hG q]
  refine congrArg G ?_
  funext a; apply Fin.ext
  match a with
  | ⟨0, _⟩ => show 0 = win0_8.index t (0 : Fin 2) * 1 + 1 * 0; omega
  | ⟨1, _⟩ => show q.val = win0_8.index t (1 : Fin 2) * 128 + 1 * q.val; omega

theorem flushed7_eq (c : Dev nD) (t : Fin cfg0.N) (hf : (cfg0.win 7).flush t = true) :
    (dat0 V c).flushed 7 t = ((cfg0.win 7).blk t).view.read (Elt Ideal) (tot V c) := by
  have h7 := last_of_flush7 t hf
  refine flushed7_of V c t (tot V c) fun q => ?_
  rw [(outs_eq V c t.val t.isLt).2.1 q, show 5000 * (t.val + 1) = 40000 from by omega, psum_full, tot_apply]

theorem flushed8_eq (c : Dev nD) (t : Fin cfg0.N) (hf : (cfg0.win 8).flush t = true) :
    (dat0 V c).flushed 8 t = ((cfg0.win 8).blk t).view.read (Elt Ideal) (totSq V c) := by
  have h7 := last_of_flush8 t hf
  refine flushed8_of V c t (totSq V c) fun q => ?_
  rw [(outs_eq V c t.val t.isLt).2.2 q, show 5000 * (t.val + 1) = 40000 from by omega, psum_full, totSq_apply]

theorem cover7 (i : S1x128.Idx) : ∃ t : Fin cfg0.N, (cfg0.win 7).flush t = true ∧ i ∈ ((cfg0.win 7).blk t).view.set := by
  have hi0 : (i 0).val < 1 := (i 0).isLt
  have hi1 : (i 1).val < 128 := (i 1).isLt
  obtain ⟨-, -, -, -, -, -, -, -, -, -, -, -, -, e70, e71, -⟩ := idx_facts t0_7
  refine ⟨t0_7, (flush0_7 t0_7).mpr rfl, ?_⟩
  show i ∈ ((View.whole main_v19_1).slice (win0_7.rect t0_7)).set
  rw [View.set_slice_whole, Rect.mem_set_unit]
  intro a
  match a with
  | ⟨0, _⟩ => show win0_7.index t0_7 (0 : Fin 2) * 1 ≤ (i 0).val ∧ (i 0).val < win0_7.index t0_7 (0 : Fin 2) * 1 + 1; omega
  | ⟨1, _⟩ => show win0_7.index t0_7 (1 : Fin 2) * 128 ≤ (i 1).val ∧ (i 1).val < win0_7.index t0_7 (1 : Fin 2) * 128 + 128; omega

theorem cover8 (i : S1x128.Idx) : ∃ t : Fin cfg0.N, (cfg0.win 8).flush t = true ∧ i ∈ ((cfg0.win 8).blk t).view.set := by
  have hi0 : (i 0).val < 1 := (i 0).isLt
  have hi1 : (i 1).val < 128 := (i 1).isLt
  obtain ⟨-, -, -, -, -, -, -, -, -, -, -, -, -, -, -, e80, e81⟩ := idx_facts t0_7
  refine ⟨t0_7, (flush0_8 t0_7).mpr rfl, ?_⟩
  show i ∈ ((View.whole main_v19_2).slice (win0_8.rect t0_7)).set
  rw [View.set_slice_whole, Rect.mem_set_unit]
  intro a
  match a with
  | ⟨0, _⟩ => show win0_8.index t0_7 (0 : Fin 2) * 1 ≤ (i 0).val ∧ (i 0).val < win0_8.index t0_7 (0 : Fin 2) * 1 + 1; omega
  | ⟨1, _⟩ => show win0_8.index t0_7 (1 : Fin 2) * 128 ≤ (i 1).val ∧ (i 1).val < win0_8.index t0_7 (1 : Fin 2) * 128 + 128; omega

/-- The two total rows after the run: the column sums of `Y` and of `Y²` over all 40000 rows. -/
theorem final7 (c : Dev nD) : (dat0 V c).arrAt 7 cfg0.N = tot V c :=
  (dat0 V c).arrAt_eq_of_cover 7 (tot V c) (flushed7_eq V c) cover7

theorem final8 (c : Dev nD) : (dat0 V c).arrAt 8 cfg0.N = totSq V c :=
  (dat0 V c).arrAt_eq_of_cover 8 (totSq V c) (flushed8_eq V c) cover8

end Cert.KernelIdeal.KRegion0

end
-- ==== Proof.KRegion1.lean ====
/-
  The second kernel region, read as values: a scale, a shift and a residual added, block by block.

  At grid point `t` the body loads rows `5000 t … 5000 t + 4999` of two arrays `a0`, `a1` and two whole rows
  `s`, `u` of 128 entries, and stores `(a0 · s + u) + a1`, the rows laid under every row of the block. The
  eight blocks tile the 40000 rows, so after the run the output array is that one expression of the arrays the
  region found, entry by entry.
-/
import proofs.«142134_j58609123721516_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.KRegion1

open Idealize.ShloMosaic Idealize.ShloMosaic.TcCoe Idealize.SL.Sem Idealize.ShloMosaic.ValueIdx
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- `(a0 · s + u) + a1`, the rows `s` and `u` read at the entry's column. -/
def affine (a0 a1 : S40000x128.Idx → F .f32) (s u : S1x128.Idx → F .f32) : S40000x128.Idx → F .f32 :=
  fun i => FloatOps.addf (FloatOps.addf (FloatOps.mulf (a0 i) (s (ix2 (0 : Fin 1) (i 1)))) (u (ix2 (0 : Fin 1) (i 1)))) (a1 i)

/-- The body's stored value at an entry of the block. -/
theorem pay_apply (x0 x10 : Vec F S5000x128 .f32) (x2 x6 : Vec F S1x128 .f32) (p : Fin 5000) (q : Fin 128) :
    k1_pay1 x0 x2 x6 x10 (ix2 p q)
      = FloatOps.addf (FloatOps.addf (FloatOps.mulf (x0 (ix2 p q)) (x2 (ix2 (0 : Fin 1) q))) (x6 (ix2 (0 : Fin 1) q))) (x10 (ix2 p q)) := by
  unfold k1_pay1
  simp only [shapeCast_self]
  show FloatOps.addf (FloatOps.addf (FloatOps.mulf (x0 (ix2 p q)) (broadcastTo S5000x128 x2 broadcasts_S1x128_S5000x128 (ix2 p q)))
      (broadcastTo S5000x128 x6 broadcasts_S1x128_S5000x128 (ix2 p q))) (x10 (ix2 p q)) = _
  rw [broadcastTo_1b_ab_apply, broadcastTo_1b_ab_apply]

/-- The printed index maps over the grid: the two row-blocked inputs and the output move together, one block of
    rows per point; the two rows stay at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is block `t` of the one whole-array expression. -/
theorem flushed_eq (c : Dev nD) (t : Fin cfg1.N) :
    (dat1 V c).flushed 4 t = ((cfg1.win 4).blk t).view.read (Elt F)
      (affine (V c main_v19_0) (V c main_arg0) (V c main_v32) (V c main_v36)) := by
  show (cfg1.win 4).cut (grid1.coords t) ((dat1 V c).after 4 t) = _
  rw [after1_4]
  unfold out1_4
  rw [View.canon_unit_zero hz]
  simp only [View.ld_unit_zero (S := S5000x128) hz, View.ld_unit_zero (S := S1x128) hz]
  obtain ⟨e00, e01, e10, e11, e20, e21, e30, e31, e40, e41⟩ := idx_facts t
  funext j
  obtain ⟨p, q, rfl⟩ : ∃ (p : Fin 5000) (q : Fin 128), j = ix2 p q := ⟨j 0, j 1, eq_ix2 j⟩
  refine (pay_apply _ _ _ _ p q).trans ?_
  have h0 : ((cfg1.win 0).blk t).view.emb (ix2 p q) = ((cfg1.win 4).blk t).view.emb (ix2 p q) := by
    funext a; apply Fin.ext
    match a with
    | ⟨0, _⟩ => show win1_0.index t (0 : Fin 2) * 5000 + 1 * p.val = win1_4.index t (0 : Fin 2) * 5000 + 1 * p.val; omega
    | ⟨1, _⟩ => show win1_0.index t (1 : Fin 2) * 128 + 1 * q.val = win1_4.index t (1 : Fin 2) * 128 + 1 * q.val; omega
  have h1 : ((cfg1.win 1).blk t).view.emb (ix2 p q) = ((cfg1.win 4).blk t).view.emb (ix2 p q) := by
    funext a; apply Fin.ext
    match a with
    | ⟨0, _⟩ => show win1_1.index t (0 : Fin 2) * 5000 + 1 * p.val = win1_4.index t (0 : Fin 2) * 5000 + 1 * p.val; omega
    | ⟨1, _⟩ => show win1_1.index t (1 : Fin 2) * 128 + 1 * q.val = win1_4.index t (1 : Fin 2) * 128 + 1 * q.val; omega
  have h2 : ((cfg1.win 2).blk t).view.emb (ix2 (0 : Fin 1) q) = ix2 (0 : Fin 1) (((cfg1.win 4).blk t).view.emb (ix2 p q) 1) := by
    funext a; apply Fin.ext
    match a with
    | ⟨0, _⟩ => show win1_2.index t (0 : Fin 2) * 1 + 1 * 0 = 0; omega
    | ⟨1, _⟩ => show win1_2.index t (1 : Fin 2) * 128 + 1 * q.val = win1_4.index t (1 : Fin 2) * 128 + 1 * q.val; omega
  have h3 : ((cfg1.win 3).blk t).view.emb (ix2 (0 : Fin 1) q) = ix2 (0 : Fin 1) (((cfg1.win 4).blk t).view.emb (ix2 p q) 1) := by
    funext a; apply Fin.ext
    match a with
    | ⟨0, _⟩ => show win1_3.index t (0 : Fin 2) * 1 + 1 * 0 = 0; omega
    | ⟨1, _⟩ => show win1_3.index t (1 : Fin 2) * 128 + 1 * q.val = win1_4.index t (1 : Fin 2) * 128 + 1 * q.val; omega
  show FloatOps.addf (FloatOps.addf (FloatOps.mulf (V c main_v19_0 (((cfg1.win 0).blk t).view.emb (ix2 p q)))
        (V c main_v32 (((cfg1.win 2).blk t).view.emb (ix2 (0 : Fin 1) q))))
        (V c main_v36 (((cfg1.win 3).blk t).view.emb (ix2 (0 : Fin 1) q))))
        (V c main_arg0 (((cfg1.win 1).blk t).view.emb (ix2 p q)))
      = affine (V c main_v19_0) (V c main_arg0) (V c main_v32) (V c main_v36) (((cfg1.win 4).blk t).view.emb (ix2 p q))
  rw [h0, h1, h2, h3]
  rfl

/-- An index of the array is in point `t`'s block iff each coordinate is in the block's range on its axis. -/
theorem mem_blk (t : Fin cfg1.N) (i : S40000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v37).slice (win1_4.rect t)).set ↔ _
  rw [View.set_slice_whole, Rect.mem_set_unit]
  exact Iff.rfl

/-- Every entry of the array is in the block of the point its row falls in. -/
theorem cover (i : S40000x128.Idx) : ∃ t : Fin cfg1.N, (cfg1.win 4).flush t = true ∧ i ∈ ((cfg1.win 4).blk t).view.set := by
  have hi0 : (i 0).val < 40000 := (i 0).isLt
  have hi1 : (i 1).val < 128 := (i 1).isLt
  have hN : cfg1.N = 8 := N_1
  let t : Fin cfg1.N := ⟨(i 0).val / 5000, by rw [hN]; omega⟩
  obtain ⟨e00, e01, e10, e11, e20, e21, e30, e31, e40, e41⟩ := idx_facts t
  have e40' : win1_4.index t (0 : Fin 2) = (i 0).val / 5000 := e40
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- The output array after the run. -/
theorem final (c : Dev nD) :
    (dat1 V c).arrAt 4 cfg1.N = affine (V c main_v19_0) (V c main_arg0) (V c main_v32) (V c main_v36) :=
  (dat1 V c).arrAt_eq_of_cover 4 _ (fun t _ => flushed_eq V c t) cover

end Cert.KernelIdeal.KRegion1

end
-- ==== Proof.KValue.lean ====
/-
  The kernel's result at one entry, on the extended reals.

  The result array is the second region's output: `(P · scale + shift) + h`, where `P` is the first region's
  activation array, which is the dense layer `act` of the arguments, and the scale and shift rows come from the
  first region's two rows of column totals of `act` and `act²`. Entry (i, d) is therefore the kernel form of batch
  normalisation (Algebra.lean) of column d of `act`, with the count 40000 and the small positive ε.
-/
import proofs.«142134_j58609123721516_1_alg».proof.Proof.Gen.KernelIdeal.Frame
import proofs.«142134_j58609123721516_1_alg».proof.Proof.KHost
import proofs.«142134_j58609123721516_1_alg».proof.Proof.KRegion0
import proofs.«142134_j58609123721516_1_alg».proof.Proof.KRegion1
import proofs.«142134_j58609123721516_1_alg».proof.Proof.RefValue
import proofs.«142134_j58609123721516_1_alg».proof.Proof.Algebra
import Idealize.ShloMosaic.Lib.ValueIdx
import Idealize.ShloMosaic.Lib.ValueLayout

set_option maxRecDepth 16384

noncomputable section

open scoped BigOperators

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.KHost

variable (m : (ℓ : Loc nD τ sig) → Buf (Elt Ideal) ℓ) (ρ : Dev nD → PrngReg)

/-- The arguments as launched, at their literal types. -/
abbrev aH (c : Dev nD) : FVec Ideal S40000x128 .f32 := m ((c.tc : Thread nD τ).loc main_arg0)
abbrev aS (c : Dev nD) : FVec Ideal S40000x1 .f32 := m ((c.tc : Thread nD τ).loc main_arg1)
abbrev aWs (c : Dev nD) : FVec Ideal S128x128 .f32 := m ((c.tc : Thread nD τ).loc main_arg2)
abbrev aWn (c : Dev nD) : FVec Ideal S128x128 .f32 := m ((c.tc : Thread nD τ).loc main_arg3)
abbrev aB (c : Dev nD) : FVec Ideal S128 .f32 := m ((c.tc : Thread nD τ).loc main_arg4)
abbrev aG (c : Dev nD) : FVec Ideal S128 .f32 := m ((c.tc : Thread nD τ).loc main_arg5)
abbrev aBe (c : Dev nD) : FVec Ideal S128 .f32 := m ((c.tc : Thread nD τ).loc main_arg6)
abbrev aSrc (c : Dev nD) : IVec S640000 32 := m ((c.tc : Thread nD τ).loc main_arg7)
abbrev aDst (c : Dev nD) : IVec S640000 32 := m ((c.tc : Thread nD τ).loc main_arg8)

/-- The activations of the arguments. -/
abbrev A (c : Dev nD) : FVec Ideal S40000x128 .f32 :=
  Cert.RefSpec.act (F := Ideal) (aH m c) (aS m c) (aWs m c) (aWn m c) (aB m c) (aSrc m c) (aDst m c)

/-! ## The first region's entry contents -/

theorem V1_arg0 (c : Dev nD) : V1 m ρ c main_arg0 = aH m c := after0_arg0 (W0 m ρ c)
theorem V1_arg1 (c : Dev nD) : V1 m ρ c main_arg1 = aS m c := after0_arg1 (W0 m ρ c)
theorem V1_arg2 (c : Dev nD) : V1 m ρ c main_arg2 = aWs m c := after0_arg2 (W0 m ρ c)
theorem V1_arg3 (c : Dev nD) : V1 m ρ c main_arg3 = aWn m c := after0_arg3 (W0 m ρ c)
theorem V1_arg4 (c : Dev nD) : V1 m ρ c main_arg4 = aB m c := after0_arg4 (W0 m ρ c)
theorem V1_hn (c : Dev nD) : V1 m ρ c main_v18 = Cert.RefSpec.hneigh (F := Ideal) (aH m c) (aSrc m c) (aDst m c) :=
  after0_hneigh (W0 m ρ c)

/-- The first region's dense layer is the activations of the arguments. -/
theorem Y_eq (c : Dev nD) : KRegion0.Y (V1 m ρ) c = A m c := by
  unfold KRegion0.Y
  show Cert.RefSpec.actOf (V1 m ρ c main_arg0) (V1 m ρ c main_v18) (V1 m ρ c main_arg1) (V1 m ρ c main_arg2) (V1 m ρ c main_arg3) (V1 m ρ c main_arg4)
    = Cert.RefSpec.act (aH m c) (aS m c) (aWs m c) (aWn m c) (aB m c) (aSrc m c) (aDst m c)
  rw [V1_arg0, V1_arg1, V1_arg2, V1_arg3, V1_arg4, V1_hn]
  rfl

/-! ## The second region's entry contents -/

theorem W2_pre (c : Dev nD) : W2 m ρ c (Proc.devRef .tc main_v19_0) = A m c :=
  (W2_arr m ρ c 6).trans ((KRegion0.final6 (V1 m ρ) c).trans (Y_eq m ρ c))

theorem W2_tot (c : Dev nD) : W2 m ρ c (Proc.devRef .tc main_v19_1) = KRegion0.tot (V1 m ρ) c :=
  (W2_arr m ρ c 7).trans (KRegion0.final7 (V1 m ρ) c)

theorem W2_totSq (c : Dev nD) : W2 m ρ c (Proc.devRef .tc main_v19_2) = KRegion0.totSq (V1 m ρ) c :=
  (W2_arr m ρ c 8).trans (KRegion0.final8 (V1 m ρ) c)

theorem W2_arg0 (c : Dev nD) : W2 m ρ c (Proc.devRef .tc main_arg0) = aH m c :=
  ((W2_arr m ρ c 0).trans (((dat0 (V1 m ρ) c).arrAt_in 0 rfl _).trans (A_eq0 (V1 m ρ) c 0))).trans (V1_arg0 m ρ c)

theorem W2_arg5 (c : Dev nD) : W2 m ρ c (Proc.devRef .tc main_arg5) = aG m c :=
  (W2_of_ne m ρ c main_arg5 (by decide)).trans (after0_arg5 (W0 m ρ c))

theorem W2_arg6 (c : Dev nD) : W2 m ρ c (Proc.devRef .tc main_arg6) = aBe m c :=
  (W2_of_ne m ρ c main_arg6 (by decide)).trans (after0_arg6 (W0 m ρ c))

theorem V3_pre (c : Dev nD) : V3 m ρ c main_v19_0 = A m c := (after1_pre (W2 m ρ c)).trans (W2_pre m ρ c)
theorem V3_arg0 (c : Dev nD) : V3 m ρ c main_arg0 = aH m c := (after1_arg0 (W2 m ρ c)).trans (W2_arg0 m ρ c)
theorem V3_scale (c : Dev nD) : V3 m ρ c main_v32
    = scaleRow (KRegion0.tot (V1 m ρ) c) (KRegion0.totSq (V1 m ρ) c) (aG m c) := by
  refine (after1_scale (W2 m ρ c)).trans ?_
  rw [W2_tot, W2_totSq, W2_arg5]
theorem V3_shift (c : Dev nD) : V3 m ρ c main_v36
    = shiftRow (KRegion0.tot (V1 m ρ) c) (KRegion0.totSq (V1 m ρ) c) (aG m c) (aBe m c) := by
  refine (after1_shift (W2 m ρ c)).trans ?_
  rw [W2_tot, W2_totSq, W2_arg5, W2_arg6]

/-- The result array: the second region's expression of the activations, the input and the two rows. -/
theorem result_eq (c : Dev nD) : W4 m ρ c (Proc.devRef .tc main_v37)
    = KRegion1.affine (A m c) (aH m c)
        (scaleRow (KRegion0.tot (V1 m ρ) c) (KRegion0.totSq (V1 m ρ) c) (aG m c))
        (shiftRow (KRegion0.tot (V1 m ρ) c) (KRegion0.totSq (V1 m ρ) c) (aG m c) (aBe m c)) := by
  refine (W4_arr m ρ c 4).trans ((KRegion1.final (V3 m ρ) c).trans ?_)
  rw [V3_pre, V3_arg0, V3_scale, V3_shift]

/-! ## One entry -/

/-- A column mean, read at column `d`. -/
theorem kMean_apply (s : FVec Ideal S1x128 .f32) (d : Fin 128) :
    kMean (F := Ideal) s (ix1 d) = Ideal.div (s (ix2 (0 : Fin 1) d)) ((40000 : ℝ) : EReal) := by
  unfold kMean
  show Ideal.div (shapeCast S128 s shapeCasts_S1x128_S128 (ix1 d)) (Ideal.ofBits .f32 0x471C4000#32) = _
  rw [shapeCast_1a_a_apply, Cert.RefValue.ofBits_count]

/-- The inverse deviation, read at column `d`. -/
theorem kRsq_apply (s1 s2 : FVec Ideal S1x128 .f32) (d : Fin 128) :
    kRsq (F := Ideal) s1 s2 (ix1 d)
      = Ideal.rsqrt ((Ideal.div (s2 (ix2 (0 : Fin 1) d)) ((40000 : ℝ) : EReal)
            - Ideal.div (s1 (ix2 (0 : Fin 1) d)) ((40000 : ℝ) : EReal) * Ideal.div (s1 (ix2 (0 : Fin 1) d)) ((40000 : ℝ) : EReal))
          + ((Cert.RefValue.epsR : ℝ) : EReal)) := by
  unfold kRsq
  show Ideal.rsqrt ((kMean s2 (ix1 d) - kMean s1 (ix1 d) * kMean s1 (ix1 d)) + Ideal.ofBits .f32 0x3727C5AC#32) = _
  rw [kMean_apply, kMean_apply, Cert.RefValue.ofBits_eps]

theorem scaleRow_apply (s1 s2 : FVec Ideal S1x128 .f32) (γ : FVec Ideal S128 .f32) (d : Fin 128) :
    scaleRow (F := Ideal) s1 s2 γ (ix2 (0 : Fin 1) d) = γ (ix1 d) * kRsq (F := Ideal) s1 s2 (ix1 d) := by
  unfold scaleRow
  rw [shapeCast_a_1a_apply]
  rfl

theorem shiftRow_apply (s1 s2 : FVec Ideal S1x128 .f32) (γ β : FVec Ideal S128 .f32) (d : Fin 128) :
    shiftRow (F := Ideal) s1 s2 γ β (ix2 (0 : Fin 1) d)
      = β (ix1 d) - (kMean (F := Ideal) s1 (ix1 d) * γ (ix1 d)) * kRsq (F := Ideal) s1 s2 (ix1 d) := by
  unfold shiftRow
  rw [shapeCast_a_1a_apply]
  rfl

/-- Entry (i, d) of the kernel's result is the kernel form of batch normalisation of column d of the activations. -/
theorem result_apply (c : Dev nD) (i : Fin 40000) (d : Fin 128) :
    W4 m ρ c (Proc.devRef .tc main_v37) (ix2 i d)
      = Cert.BN.kerForm ((40000 : ℝ) : EReal) ((Cert.RefValue.epsR : ℝ) : EReal) (fun j : Fin 40000 => A m c (ix2 j d))
          (aH m c (ix2 i d)) (aG m c (ix1 d)) (aBe m c (ix1 d)) i := by
  rw [result_eq]
  unfold KRegion1.affine Cert.BN.kerForm
  show (A m c (ix2 i d) * scaleRow _ _ _ (ix2 (0 : Fin 1) d) + shiftRow _ _ _ _ (ix2 (0 : Fin 1) d)) + aH m c (ix2 i d) = _
  rw [scaleRow_apply, shiftRow_apply, kRsq_apply, kMean_apply]
  have h1 : KRegion0.tot (V1 m ρ) c (ix2 (0 : Fin 1) d) = ∑ j : Fin 40000, A m c (ix2 j d) := by
    unfold KRegion0.tot; rw [Y_eq]
  have h2 : KRegion0.totSq (V1 m ρ) c (ix2 (0 : Fin 1) d) = ∑ j : Fin 40000, A m c (ix2 j d) * A m c (ix2 j d) := by
    unfold KRegion0.totSq; rw [Y_eq]
  rw [h1, h2]

end Cert.KernelIdeal.KValue

end
-- ==== Proof.lean ====
/-
  A graph layer with mean aggregation and batch normalisation: the tiled kernel program against the plain reference.

  Both programs compute the neighbour means with the same host operations, and the same dense layer
  `act = relu (h · W_self + hneigh · W_neigh + b) · snorm`; on the extended reals the kernel's narrower matrix
  operands and its tiling into eight blocks of rows change nothing. They differ in how they normalise. The
  reference centres each column by its mean and divides by the deviation from the mean of squared deviations; the
  kernel accumulates each column's sum and sum of squares block by block, takes the variance as
  `E[act²] − E[act]²`, and applies one scale and one shift per column. The two agree when every entry of `act` is a
  real number, which the precondition gives: the arguments are finite, a neighbour mean is a finite sum of finite
  entries over a count of at least one, and a dense layer of finite entries is finite.

  The three frames: the two kernel programs' are the generated frame certificates; the reference's is its run with
  the result dropped. The ideal pass rewrote nothing, so `preserves` asks nothing.
-/
import proofs.«142134_j58609123721516_1_alg».proof.Defs
import proofs.«142134_j58609123721516_1_alg».proof.Proof.Gen.Kernel
import proofs.«142134_j58609123721516_1_alg».proof.Proof.Gen.Kernel.Skeleton
import proofs.«142134_j58609123721516_1_alg».proof.Proof.Gen.Kernel.Launch
import proofs.«142134_j58609123721516_1_alg».proof.Proof.Gen.Kernel.Points
import proofs.«142134_j58609123721516_1_alg».proof.Proof.Gen.Kernel.Frame
import proofs.«142134_j58609123721516_1_alg».proof.Proof.Gen.KernelIdeal
import proofs.«142134_j58609123721516_1_alg».proof.Proof.Gen.KernelIdeal.Skeleton
import proofs.«142134_j58609123721516_1_alg».proof.Proof.Gen.KernelIdeal.Launch
import proofs.«142134_j58609123721516_1_alg».proof.Proof.Gen.KernelIdeal.Points
import proofs.«142134_j58609123721516_1_alg».proof.Proof.Gen.KernelIdeal.Frame
import proofs.«142134_j58609123721516_1_alg».proof.Proof.Gen.ReferenceIdeal
import proofs.«142134_j58609123721516_1_alg».proof.Proof.Gen.Pre_finite_inputs
import proofs.«142134_j58609123721516_1_alg».proof.Proof.Algebra
import proofs.«142134_j58609123721516_1_alg».proof.Proof.RefRun
import proofs.«142134_j58609123721516_1_alg».proof.Proof.RefValue
import proofs.«142134_j58609123721516_1_alg».proof.Proof.FinitePre
import proofs.«142134_j58609123721516_1_alg».proof.Proof.FiniteAct
import proofs.«142134_j58609123721516_1_alg».proof.Proof.KRun
import proofs.«142134_j58609123721516_1_alg».proof.Proof.KValue
import Idealize.ShloMosaic.Adequacy
import Idealize.ShloMosaic.Init

set_option maxRecDepth 16384

noncomputable section

namespace Cert.Proof

open Idealize.ShloMosaic Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.RefRun.run (F := Ideal) m ρ)

theorem preserves : Cert.preserves_Kernel_KernelIdeal := trivial

/-- Both programs end with the same result array: entry by entry, the kernel's form of batch normalisation of a
    column of real activations is the reference's form. -/
theorem algebraic : Cert.algebraic_KernelIdeal_ReferenceIdeal := by
  intro m ρ m' ρ' hpre hagree
  refine ⟨fun c => Cert.KernelIdeal.Gen.W4 m ρ c (Proc.devRef .tc Cert.KernelIdeal.main_v37),
    Cert.KernelIdeal.KRun.run m ρ, ?_⟩
  refine (θ_run Cert.ReferenceIdeal.defs _ _).mono (fun r h c => ⟨(h c).1.trans ?_, (h c).2⟩)
    (Cert.RefRun.run (F := Ideal) m' ρ')
  obtain ⟨a0, a1, a2, a3, a4, a5, a6, a7, a8⟩ := hagree c
  rw [a0, a1, a2, a3, a4, a5, a6, a7, a8]
  obtain ⟨hH, hS, hWs, hWn, hB, hG, hBe⟩ := Cert.FinitePre.reals_of_pre _ _ _ _ _ _ _ _ _ (hpre c)
  have hA := Cert.FiniteAct.act_real _ _ _ _ _
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8)) hH hS hWs hWn hB
  funext j
  obtain ⟨i, d, rfl⟩ : ∃ (i : Fin 40000) (d : Fin 128), j = ix2 i d := ⟨j 0, j 1, eq_ix2 j⟩
  refine Eq.trans ?_ (Cert.KernelIdeal.KValue.result_apply m ρ c i d).symm
  unfold Cert.RefSpec.refOut
  rw [Cert.RefValue.bnOut_apply]
  choose y hy using hA
  obtain ⟨hr, hhr⟩ := hH (ix2 i d)
  obtain ⟨gr, hgr⟩ := hG (ix1 d)
  obtain ⟨br, hbr⟩ := hBe (ix1 d)
  have ey : (fun j : Fin 40000 => Cert.KernelIdeal.KValue.A m c (ix2 j d)) = fun j => ((y (ix2 j d) : ℝ) : EReal) :=
    funext fun j => hy (ix2 j d)
  show Cert.BN.refForm _ _ (fun j : Fin 40000 => Cert.KernelIdeal.KValue.A m c (ix2 j d))
      (Cert.KernelIdeal.KValue.aH m c (ix2 i d)) (Cert.KernelIdeal.KValue.aG m c (ix1 d)) (Cert.KernelIdeal.KValue.aBe m c (ix1 d)) i
    = Cert.BN.kerForm _ _ (fun j : Fin 40000 => Cert.KernelIdeal.KValue.A m c (ix2 j d))
      (Cert.KernelIdeal.KValue.aH m c (ix2 i d)) (Cert.KernelIdeal.KValue.aG m c (ix1 d)) (Cert.KernelIdeal.KValue.aBe m c (ix1 d)) i
  rw [ey, show Cert.KernelIdeal.KValue.aH m c (ix2 i d) = ((hr : ℝ) : EReal) from hhr,
    show Cert.KernelIdeal.KValue.aG m c (ix1 d) = ((gr : ℝ) : EReal) from hgr,
    show Cert.KernelIdeal.KValue.aBe m c (ix1 d) = ((br : ℝ) : EReal) from hbr]
  exact (Cert.BN.kerForm_eq_refForm (ι := Fin 40000) 40000 Cert.RefValue.epsR (by simp) (by norm_num)
    Cert.RefValue.epsR_pos (fun j => y (ix2 j d)) hr gr br i).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
